-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x16x2048x64 : Shape := ⟨4, ![1, 16, 2048, 64]⟩
abbrev S_ : Shape := ⟨0, ![]⟩

class Facts : Prop where
  bcast_S_S1x16x2048x64 : S_.BroadcastsInDim S1x16x2048x64 (![] : Fin 0 → Fin S1x16x2048x64.rank)
  reducesTo_S1x16x2048x64_S_d0_1_2_3 : S1x16x2048x64.ReducesTo [0, 1, 2, 3] S_
  h_S_ : 0 < S_.numel

variable [Facts]

def fn {F : FTy → Type} [FloatOps F] (main_arg0 : FVec F S1x16x2048x64 .f32) (main_arg1 : FVec F S1x16x2048x64 .f32) (main_arg2 : FVec F S1x16x2048x64 .f32) : IVec S_ 1 :=
  let main_v0 : FVec F S1x16x2048x64 .f32 := Host.absf main_arg0
  let main_cst : FVec F S_ .f32 := constant S_ .f32 0x7F800000#32
  let main_v1 : FVec F S1x16x2048x64 .f32 := broadcastInDim S1x16x2048x64 ![] bcast_S_S1x16x2048x64 main_cst
  let main_v2 : IVec S1x16x2048x64 1 := cmpf .olt main_v0 main_v1
  let main_c : IVec S_ 1 := constantI S_ 1 1#1
  let main_v3 : IVec S_ 1 := (fun x v => Host.reduce IntOp.andi x v reducesTo_S1x16x2048x64_S_d0_1_2_3 h_S_) main_v2 main_c
  let main_v4 : FVec F S1x16x2048x64 .f32 := Host.absf main_arg1
  let main_cst_0 : FVec F S_ .f32 := constant S_ .f32 0x7F800000#32
  let main_v5 : FVec F S1x16x2048x64 .f32 := broadcastInDim S1x16x2048x64 ![] bcast_S_S1x16x2048x64 main_cst_0
  let main_v6 : IVec S1x16x2048x64 1 := cmpf .olt main_v4 main_v5
  let main_c_1 : IVec S_ 1 := constantI S_ 1 1#1
  let main_v7 : IVec S_ 1 := (fun x v => Host.reduce IntOp.andi x v reducesTo_S1x16x2048x64_S_d0_1_2_3 h_S_) main_v6 main_c_1
  let main_v8 : IVec S_ 1 := andi main_v3 main_v7
  let main_v9 : FVec F S1x16x2048x64 .f32 := Host.absf main_arg2
  let main_cst_2 : FVec F S_ .f32 := constant S_ .f32 0x7F800000#32
  let main_v10 : FVec F S1x16x2048x64 .f32 := broadcastInDim S1x16x2048x64 ![] bcast_S_S1x16x2048x64 main_cst_2
  let main_v11 : IVec S1x16x2048x64 1 := cmpf .olt main_v9 main_v10
  let main_c_3 : IVec S_ 1 := constantI S_ 1 1#1
  let main_v12 : IVec S_ 1 := (fun x v => Host.reduce IntOp.andi x v reducesTo_S1x16x2048x64_S_d0_1_2_3 h_S_) main_v11 main_c_3
  let main_v13 : IVec S_ 1 := andi main_v8 main_v12
  main_v13
-- ==== Kernel.lean ====
abbrev S1x16x2048x64 : Shape := ⟨4, ![1, 16, 2048, 64]⟩
abbrev S16x2048x64 : Shape := ⟨3, ![16, 2048, 64]⟩
abbrev S1x512x64 : Shape := ⟨3, ![1, 512, 64]⟩
abbrev S512x64 : Shape := ⟨2, ![512, 64]⟩
abbrev S512x1 : Shape := ⟨2, ![512, 1]⟩
abbrev S64x512 : Shape := ⟨2, ![64, 512]⟩
abbrev S512x512 : Shape := ⟨2, ![512, 512]⟩
abbrev S512 : Shape := ⟨1, ![512]⟩

abbrev nBuf : Space → Nat
  | .hbm => 8
  | .vmem => 10
  | .smem => 0
  | _ => 0

abbrev bufTy : (tb : Table) → Fin (tcTables nBuf tb) → BufTy
  | .hbm, ⟨0, _⟩ => ⟨S1x16x2048x64, .f32⟩
  | .hbm, ⟨1, _⟩ => ⟨S1x16x2048x64, .f32⟩
  | .hbm, ⟨2, _⟩ => ⟨S1x16x2048x64, .f32⟩
  | .hbm, ⟨3, _⟩ => ⟨S16x2048x64, .f32⟩
  | .hbm, ⟨4, _⟩ => ⟨S16x2048x64, .f32⟩
  | .hbm, ⟨5, _⟩ => ⟨S16x2048x64, .f32⟩
  | .hbm, ⟨6, _⟩ => ⟨S16x2048x64, .f32⟩
  | .hbm, ⟨7, _⟩ => ⟨S1x16x2048x64, .f32⟩
  | .local _ .vmem, ⟨0, _⟩ => ⟨S1x512x64, .f32⟩
  | .local _ .vmem, ⟨1, _⟩ => ⟨S1x512x64, .f32⟩
  | .local _ .vmem, ⟨2, _⟩ => ⟨S1x512x64, .f32⟩
  | .local _ .vmem, ⟨3, _⟩ => ⟨S1x512x64, .f32⟩
  | .local _ .vmem, ⟨4, _⟩ => ⟨S1x512x64, .f32⟩
  | .local _ .vmem, ⟨5, _⟩ => ⟨S1x512x64, .f32⟩
  | .local _ .vmem, ⟨6, _⟩ => ⟨S1x512x64, .f32⟩
  | .local _ .vmem, ⟨7, _⟩ => ⟨S1x512x64, .f32⟩
  | .local _ .vmem, ⟨8, _⟩ => ⟨S512x64, .f32⟩
  | .local _ .vmem, ⟨9, _⟩ => ⟨S512x1, .f32⟩
  | _, _ => ⟨S1x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 4, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_2 : BitVec 32 := 0#32
  let v8 : BitVec 1 := Scalar.cmpi .ne v7 c0_i32_2
  v8

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S1x16x2048x64_S16x2048x64 : S1x16x2048x64.ShapeCasts S16x2048x64
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  bitsLt_bf16_f32 : FTy.bits .bf16 < FTy.bits .f32
  transposes_S512x64_p1_0_S64x512 : S512x64.Transposes [1, 0] S64x512
  iota_S512x512_d0_w32 : S512x512.Iotas .tc 32 [0]
  iota_S512x512_d1_w32 : S512x512.Iotas .tc 32 [1]
  reduces_S512x512_S512 : S512x512.Reduces [1] S512
  shapeCasts_S512_S512x1 : S512.ShapeCasts S512x1
  broadcasts_S512x1_S512x64 : S512x1.Broadcasts S512x64
  shapeCasts_S512x64_S1x512x64 : S512x64.ShapeCasts S1x512x64
  shapeCasts_S16x2048x64_S1x16x2048x64 : S16x2048x64.ShapeCasts S1x16x2048x64
  dot_S512x64_S64x512_S512x512_1_0_0_1_n_n_wf : DotDims.WF S512x64 S64x512 S512x512 [1] [0] [0] [1] [] []
  dot_S512x512_S512x64_S512x64_1_0_0_1_n_n_wf : DotDims.WF S512x512 S512x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S16x2048x64.size a
  hwx0_0 : ∀ i : grid0.Coords, EltTy.bits .f32 = 32 ∨ (Rect.block (s := S16x2048x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x64.size a ≤ S16x2048x64.size a
  hwx0_1 : ∀ i : grid0.Coords, EltTy.bits .f32 = 32 ∨ (Rect.block (s := S16x2048x64) S1x512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x64.size a ≤ S16x2048x64.size a
  hwx0_2 : ∀ i : grid0.Coords, EltTy.bits .f32 = 32 ∨ (Rect.block (s := S16x2048x64) S1x512x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x64.size a ≤ S16x2048x64.size a
  hwx0_3 : ∀ i : grid0.Coords, EltTy.bits .f32 = 32 ∨ (Rect.block (s := S16x2048x64) S1x512x64.size (cc0_transform_3 i) (hinb0_3 i)).WholeWords (EltTy.packing .f32)

variable [Facts₀]

def dot_S512x64_S64x512_S512x512_1_0_0_1_n_n : DotDims S512x64 S64x512 S512x512 where
  lhsContracting := [1]
  rhsContracting := [0]
  lhsNonContracting := [0]
  rhsNonContracting := [1]
  lhsBatch := []
  rhsBatch := []
  wf := dot_S512x64_S64x512_S512x512_1_0_0_1_n_n_wf
def dot_S512x512_S512x64_S512x64_1_0_0_1_n_n : DotDims S512x512 S512x64 S512x64 where
  lhsContracting := [1]
  rhsContracting := [0]
  lhsNonContracting := [0]
  rhsNonContracting := [1]
  lhsBatch := []
  rhsBatch := []
  wf := dot_S512x512_S512x64_S512x64_1_0_0_1_n_n_wf

abbrev win0_0 : Pipeline.Window sig grid0 :=
  Pipeline.Window.ofSpec (Memref.whole main_v0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x512x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x512x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond3 i == 1#1) | ⟨_ + 4, h⟩ => absurd h (Nat.not_lt.2 (Nat.le_add_left _ _))

class Facts : Prop extends Facts₀ where

variable [Facts]
-- ==== ReferenceIdeal.lean ====
abbrev S1x16x2048x64 : Shape := ⟨4, ![1, 16, 2048, 64]⟩
abbrev S1x16x2048x2048 : Shape := ⟨4, ![1, 16, 2048, 2048]⟩
abbrev S_ : Shape := ⟨0, ![]⟩
abbrev S2048x2048 : Shape := ⟨2, ![2048, 2048]⟩
abbrev S1x16x2048 : Shape := ⟨3, ![1, 16, 2048]⟩
abbrev S1x16x2048x1 : Shape := ⟨4, ![1, 16, 2048, 1]⟩

abbrev nBuf : Space → Nat
  | .hbm => 32
  | .vmem => 0
  | .smem => 0
  | _ => 0

abbrev bufTy : (tb : Table) → Fin (tcTables nBuf tb) → BufTy
  | .hbm, ⟨0, _⟩ => ⟨S1x16x2048x64, .f32⟩
  | .hbm, ⟨1, _⟩ => ⟨S1x16x2048x64, .f32⟩
  | .hbm, ⟨2, _⟩ => ⟨S1x16x2048x64, .f32⟩
  | .hbm, ⟨3, _⟩ => ⟨S1x16x2048x2048, .f32⟩
  | .hbm, ⟨4, _⟩ => ⟨S_, .f32⟩
  | .hbm, ⟨5, _⟩ => ⟨S1x16x2048x2048, .f32⟩
  | .hbm, ⟨6, _⟩ => ⟨S1x16x2048x2048, .f32⟩
  | .hbm, ⟨7, _⟩ => ⟨S1x16x2048x2048, .f32⟩
  | .hbm, ⟨8, _⟩ => ⟨S_, .i1⟩
  | .hbm, ⟨9, _⟩ => ⟨S2048x2048, .i1⟩
  | .hbm, ⟨10, _⟩ => ⟨S2048x2048, .i32⟩
  | .hbm, ⟨11, _⟩ => ⟨S_, .i32⟩
  | .hbm, ⟨12, _⟩ => ⟨S2048x2048, .i32⟩
  | .hbm, ⟨13, _⟩ => ⟨S2048x2048, .i32⟩
  | .hbm, ⟨14, _⟩ => ⟨S2048x2048, .i32⟩
  | .hbm, ⟨15, _⟩ => ⟨S2048x2048, .i1⟩
  | .hbm, ⟨16, _⟩ => ⟨S_, .i1⟩
  | .hbm, ⟨17, _⟩ => ⟨S2048x2048, .i1⟩
  | .hbm, ⟨18, _⟩ => ⟨S2048x2048, .i1⟩
  | .hbm, ⟨19, _⟩ => ⟨S_, .f32⟩
  | .hbm, ⟨20, _⟩ => ⟨S1x16x2048x2048, .i1⟩
  | .hbm, ⟨21, _⟩ => ⟨S1x16x2048x2048, .f32⟩
  | .hbm, ⟨22, _⟩ => ⟨S1x16x2048x2048, .f32⟩
  | .hbm, ⟨23, _⟩ => ⟨S_, .f32⟩
  | .hbm, ⟨24, _⟩ => ⟨S1x16x2048, .f32⟩
  | .hbm, ⟨25, _⟩ => ⟨S1x16x2048x64, .f32⟩
  | .hbm, ⟨26, _⟩ => ⟨S1x16x2048x1, .f32⟩
  | .hbm, ⟨27, _⟩ => ⟨S_, .f32⟩
  | .hbm, ⟨28, _⟩ => ⟨S1x16x2048x1, .f32⟩
  | .hbm, ⟨29, _⟩ => ⟨S1x16x2048x1, .f32⟩
  | .hbm, ⟨30, _⟩ => ⟨S1x16x2048x64, .f32⟩
  | .hbm, ⟨31, _⟩ => ⟨S1x16x2048x64, .f32⟩
  | _, _ => ⟨S1x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_0 : Ref sig .tc := ⟨.hbm, 16, rfl⟩
abbrev main_call0_v5 : Ref sig .tc := ⟨.hbm, 17, rfl⟩
abbrev main_v5 : Ref sig .tc := ⟨.hbm, 18, rfl⟩
abbrev main_cst_0 : Ref sig .tc := ⟨.hbm, 19, rfl⟩
abbrev main_call1_v0 : Ref sig .tc := ⟨.hbm, 20, rfl⟩
abbrev main_call1_v1 : Ref sig .tc := ⟨.hbm, 21, rfl⟩
abbrev main_v6 : Ref sig .tc := ⟨.hbm, 22, rfl⟩
abbrev main_cst_1 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst_2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩

abbrev nD : Nat := 1
abbrev τ : Topo := Topo.v7x

variable {F : FTy → Type} [FloatOps F]

class Facts₀ : Prop where
  bcast_S_S1x16x2048x2048 : S_.BroadcastsInDim S1x16x2048x2048 (![] : Fin 0 → Fin S1x16x2048x2048.rank)
  bcast_S_S2048x2048 : S_.BroadcastsInDim S2048x2048 (![] : Fin 0 → Fin S2048x2048.rank)
  bcast_S2048x2048_S1x16x2048x2048_2_3 : S2048x2048.BroadcastsInDim S1x16x2048x2048 (![2, 3] : Fin 2 → Fin S1x16x2048x2048.rank)
  reducesTo_S1x16x2048x2048_S1x16x2048_d3 : S1x16x2048x2048.ReducesTo [3] S1x16x2048
  h_S_ : 0 < S_.numel
  bcast_S1x16x2048_S1x16x2048x1_0_1_2 : S1x16x2048.BroadcastsInDim S1x16x2048x1 (![0, 1, 2] : Fin 3 → Fin S1x16x2048x1.rank)
  bcast_S_S1x16x2048x1 : S_.BroadcastsInDim S1x16x2048x1 (![] : Fin 0 → Fin S1x16x2048x1.rank)
  bcast_S1x16x2048x1_S1x16x2048x64_0_1_2_3 : S1x16x2048x1.BroadcastsInDim S1x16x2048x64 (![0, 1, 2, 3] : Fin 4 → Fin S1x16x2048x64.rank)
  dot_S1x16x2048x64_S1x16x2048x64_S1x16x2048x2048_3_3_2_2_01_01_wf : DotDims.WF S1x16x2048x64 S1x16x2048x64 S1x16x2048x2048 [3] [3] [2] [2] [0, 1] [0, 1]
  dot_S1x16x2048x2048_S1x16x2048x64_S1x16x2048x64_3_2_2_3_01_01_wf : DotDims.WF S1x16x2048x2048 S1x16x2048x64 S1x16x2048x64 [3] [2] [2] [3] [0, 1] [0, 1]

variable [Facts₀]

def dot_S1x16x2048x64_S1x16x2048x64_S1x16x2048x2048_3_3_2_2_01_01 : DotDims S1x16x2048x64 S1x16x2048x64 S1x16x2048x2048 where
  lhsContracting := [3]
  rhsContracting := [3]
  lhsNonContracting := [2]
  rhsNonContracting := [2]
  lhsBatch := [0, 1]
  rhsBatch := [0, 1]
  wf := dot_S1x16x2048x64_S1x16x2048x64_S1x16x2048x2048_3_3_2_2_01_01_wf
def dot_S1x16x2048x2048_S1x16x2048x64_S1x16x2048x64_3_2_2_3_01_01 : DotDims S1x16x2048x2048 S1x16x2048x64 S1x16x2048x64 where
  lhsContracting := [3]
  rhsContracting := [2]
  lhsNonContracting := [2]
  rhsNonContracting := [3]
  lhsBatch := [0, 1]
  rhsBatch := [0, 1]
  wf := dot_S1x16x2048x2048_S1x16x2048x64_S1x16x2048x64_3_2_2_3_01_01_wf

class Facts : Prop extends Facts₀ where

variable [Facts]
-- ==== Proof.HandK.Acc.lean ====
/-
  The kernel's state between grid points, and the pipeline's proof data over it.

  A grid point is `(head, query block, key block)`; the body keeps two accumulators in scratch memory between
  the points of one `(head, query block)`: the weighted sum of value rows (512 × 64) and the sum of weights
  (512 × 1).  At key block 0 it resets both to zero; where the key block is not after the query block it adds that
  block's contribution to both; at key block 3 it stores their quotient (ε added below) into the output block.
  `step` is that transition as a pure function of the point's three input blocks and the state before it, written
  over the body's own store payloads; `accAt` is the state after each point by recursion on the point; the region's
  invariant `PhiS` holds the two scratch buffers at `accAt` of the point before.
-/
import proofs.«177288_j29240137351227_1_alg».proof.Proof.Gen.Kernel.Frame
import proofs.«177288_j29240137351227_1_alg».proof.Proof.Gen.Kernel.Skeleton

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's three branch conditions -/

/-- Key block 0: the accumulators are reset. -/
abbrev cond1 (i : grid0.Coords) : Prop :=
  (Scalar.cmpi .ne (Scalar.extui (Scalar.cmpi .eq (BitVec.ofNat 32 (i 2).val) 0#32)) 0#32) = 1#1
/-- The key block is not after the query block: its contribution is added. -/
abbrev cond2 (i : grid0.Coords) : Prop :=
  (Scalar.cmpi .ne (Scalar.extui (Scalar.cmpi .sle (BitVec.ofNat 32 (i 2).val) (BitVec.ofNat 32 (i 1).val))) 0#32) = 1#1
/-- Key block 3, the last: the quotient is stored. -/
abbrev cond3 (i : grid0.Coords) : Prop := k0_cond3 i = 1#1

/-- Point `t` is `head · 16 + query block · 4 + key block`; the three conditions in those terms, decided over the
    256 points. -/
theorem hcond1 : ∀ t : Fin cfg0.N, cond1 (grid0.coords t) ↔ t.val % 4 = 0 :=
  (by decide +kernel : ∀ t : Fin grid0.N, cond1 (grid0.coords t) ↔ t.val % 4 = 0)
theorem hcond2 : ∀ t : Fin cfg0.N, cond2 (grid0.coords t) ↔ t.val % 4 ≤ t.val / 4 % 4 :=
  (by decide +kernel : ∀ t : Fin grid0.N, cond2 (grid0.coords t) ↔ t.val % 4 ≤ t.val / 4 % 4)
theorem hcond3 : ∀ t : Fin cfg0.N, cond3 (grid0.coords t) ↔ t.val % 4 = 3 :=
  (by decide +kernel : ∀ t : Fin grid0.N, cond3 (grid0.coords t) ↔ t.val % 4 = 3)

/-! ## Where the windows are idle -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
/-- Away from key block 3 the body stores nothing into the output block, and the block is not written back. -/
theorem idleAt3 : ∀ t : Fin cfg0.N, ¬cond3 (grid0.coords t) → cfg0.idle 3 (grid0.coords t) = true := by decide +kernel
theorem noFlush3 : ∀ t : Fin cfg0.N, ¬cond3 (grid0.coords t) → (cfg0.win 3).flush t = false := by decide +kernel
/-- At key block 3 it stores the whole block. -/
theorem liveAt3 : ∀ t : Fin cfg0.N, cond3 (grid0.coords t) → cfg0.idle 3 (grid0.coords t) = false := by decide +kernel

/-! ## The memrefs the body is called with -/

abbrev ms0 (t : Fin cfg0.N) : Memref sig .tc .vmem S1x512x64 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x512x64 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x512x64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512x64 .f32 := win0_3.stage (cfg0.slots t 3)
abbrev hs3 (t : Fin cfg0.N) : (ms3 t).IsWhole := hstage0_3 ((cfg0.slots t 3).cast nbuf0_3)
/-- The two accumulators: scratch buffers of the kernel's own. -/
abbrev scM0 : Memref sig .tc .vmem S512x64 .f32 := Memref.whole cc0_scratch0
abbrev scM1 : Memref sig .tc .vmem S512x1 .f32 := Memref.whole cc0_scratch1
/-- Views through which a buffer's contents after a list of stores are stated. -/
abbrev VO3 : View sig .tc .vmem S1x512x64 .f32 := (Memref.whole cc0_stg3_0 : Memref sig .tc .vmem S1x512x64 .f32).view
abbrev VS0 : View sig .tc .vmem S512x64 .f32 := scM0.view
abbrev VS1 : View sig .tc .vmem S512x1 .f32 := scM1.view

/-- What the launch hands the region: the two accumulators at anything, the generator register at some state. -/
theorem PhiA0_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-! ## The state and its transition -/

/-- One point's transition of the two accumulators `(weighted sum, sum of weights)`, from the point's query, key
    and value blocks. -/
def step (i : grid0.Coords) (x0 x1 x2 : Vec F S1x512x64 .f32) (s : Vec F S512x64 .f32 × Vec F S512x1 .f32) :
    Vec F S512x64 .f32 × Vec F S512x1 .f32 :=
  let s1 : Vec F S512x64 .f32 × Vec F S512x1 .f32 := if cond1 i then (k0_pay1 (F := F), k0_pay2 (F := F)) else s
  if cond2 i then
    (k0_pay3 (k0_pay7 (BitVec.ofNat 32 (i 1).val) (BitVec.ofNat 32 (i 2).val) x0 x1 x2 s1.1),
      k0_pay6 (BitVec.ofNat 32 (i 1).val) (BitVec.ofNat 32 (i 2).val) x0 x1 s1.2)
  else s1

/-- The three input blocks at point `t`, at their literal type. -/
abbrev xq (c : Dev nD) (t : Fin cfg0.N) : Vec F S1x512x64 .f32 := iblk m c 0 t
abbrev xk (c : Dev nD) (t : Fin cfg0.N) : Vec F S1x512x64 .f32 := iblk m c 1 t
abbrev xv (c : Dev nD) (t : Fin cfg0.N) : Vec F S1x512x64 .f32 := iblk m c 2 t

/-- The accumulators after point `n`. (Before the first point they are taken at zero: the first point is a key
    block 0, which resets them whatever they hold.) -/
def accAt (c : Dev nD) : (n : ℕ) → n < cfg0.N → Vec F S512x64 .f32 × Vec F S512x1 .f32
  | 0, hn => step (grid0.coords ⟨0, hn⟩) (xq m c ⟨0, hn⟩) (xk m c ⟨0, hn⟩) (xv m c ⟨0, hn⟩) (k0_pay1 (F := F), k0_pay2 (F := F))
  | n + 1, hn => step (grid0.coords ⟨n + 1, hn⟩) (xq m c ⟨n + 1, hn⟩) (xk m c ⟨n + 1, hn⟩) (xv m c ⟨n + 1, hn⟩)
      (accAt c n (Nat.lt_of_succ_lt hn))

/-- The accumulators before point `n`. -/
def prevAt (c : Dev nD) : (n : ℕ) → n < cfg0.N → Vec F S512x64 .f32 × Vec F S512x1 .f32
  | 0, _ => (k0_pay1 (F := F), k0_pay2 (F := F))
  | n + 1, hn => accAt m c n (Nat.lt_of_succ_lt hn)

theorem accAt_eq (c : Dev nD) (t : Fin cfg0.N) :
    accAt m c t.val t.isLt = step (grid0.coords t) (xq m c t) (xk m c t) (xv m c t) (prevAt m c t.val t.isLt) := by
  obtain ⟨n, hn⟩ := t
  cases n with
  | zero => rfl
  | succ n => rfl

theorem prevAt_pos (c : Dev nD) (n : ℕ) (hn : n < cfg0.N) (hz : n ≠ 0) :
    prevAt m c n hn = accAt m c (n - 1) (by omega) := by
  cases n with
  | zero => exact absurd rfl hz
  | succ n => rfl

/-- What the body stores into the output block at a key block 3. -/
def outAt (c : Dev nD) (t : Fin cfg0.N) : Vec F S1x512x64 .f32 :=
  k0_pay4 (accAt m c t.val t.isLt).1 (accAt m c t.val t.isLt).2

/-! ## The invariant and the proof data -/

/-- Before point `n`: at the region's entry whatever the launch hands over; afterwards the two accumulators at what
    the point before left, and the generator register at some state. -/
def PhiS (c : Dev nD) : (n : ℕ) → n ≤ cfg0.N → sProp 𝕄
  | 0, _ => Pipeline.ΦA spec0 c
  | n + 1, hn => iprop(iprop(owns (c : Thread nD τ) scM0 fullShare ((accAt m c n hn).1) ∗ owns (c : Thread nD τ) scM1 fullShare ((accAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0 fullShare ((accAt m c n hn).1) ∗ owns (c : Thread nD τ) scM1 fullShare ((accAt m c n hn).2)) ∗ (∃ r, prngReg c r)) := rfl

theorem PhiS_pos (c : Dev nD) (n : ℕ) (h : n ≤ cfg0.N) (hz : n ≠ 0) :
    PhiS m c n h = iprop(iprop(owns (c : Thread nD τ) scM0 fullShare ((accAt m c (n - 1) (by omega)).1) ∗ owns (c : Thread nD τ) scM1 fullShare ((accAt m c (n - 1) (by omega)).2)) ∗ (∃ r, prngReg c r)) := by
  cases n with
  | zero => exact absurd rfl hz
  | succ n => rfl

/-- The proof data of the one pipeline on core `c`: the arrays as the region finds them; after the body each input's
    buffer at its block and the output's at the quotient of the accumulators; the invariant `PhiS`; nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = outAt m c t := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

end Cert.Kernel.Hand

end
-- ==== Proof.HandK.RunA.lean ====
/-
  The body at a key block 0 that is not the last key block: both accumulators are reset and the block's
  contribution is added; the output block is not touched.
-/
import proofs.«177288_j29240137351227_1_alg».proof.Proof.HandK.Acc

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores the body leaves in the buffers it writes (latest first), with the proof that on whole memrefs — the
    three inputs at their blocks, the output block and both accumulators at the given contents — it runs to a
    continuation that gets every buffer it does not write back as it was and every buffer it writes with those
    stores written. -/
noncomputable def kernelRunA (c : Dev nD) (i : grid0.Coords) (arg3 : Memref sig .tc .vmem S1x512x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S512x64 .f32) (harg7 : arg7.IsWhole) (arg8 : Memref sig .tc .vmem S512x1 .f32) (harg8 : arg8.IsWhole) (hc1 : cond1 i) (hc2 : cond2 i) (hc3 : ¬cond3 i)
    (x0 x1 x2 : Vec F S1x512x64 .f32) :
    Σ' (LS0 : List (View.Piece (Elt F) S512x64 .f32)), { LS1 : List (View.Piece (Elt F) S512x1 .f32) //
      ∀ (xi3 : Vec F S1x512x64 .f32) (xs0 : Vec F S512x64 .f32) (xs1 : Vec F S512x1 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3 ∗ owns (c : Thread nD τ) arg7 fullShare xs0 ∗ owns (c : Thread nD τ) arg8 fullShare xs1
            ∗ (iprop(owns (c : Thread nD τ) arg3 fullShare x0 ∗ owns (c : Thread nD τ) arg4 fullShare x1 ∗ owns (c : Thread nD τ) arg5 fullShare x2
                ∗ owns (c : Thread nD τ) arg6 fullShare xi3
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc0__attn_kernel i arg3 harg3 arg4 harg4 arg5 harg5 arg6 harg6 arg7 harg7 arg8 harg8) K } := by
  refine ⟨?_, ?_, fun xi3 xs0 xs1 E K => ?run⟩
  case run =>
    simp only [cc0__attn_kernel_eq_skeleton, k0_part1_eq_skeleton]; unfold cc0__attn_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg3.eq_unread hf0; obtain rfl := harg4.eq_unread hf1; obtain rfl := harg5.eq_unread hf2
    obtain rfl := harg6.eq_unread hf3; obtain rfl := harg7.eq_unread hfs0; obtain rfl := harg8.eq_unread hfs1
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]
    · iexists _; iexact HS0
    iexists _; iexact HS1

end Cert.Kernel.Hand

end
-- ==== Proof.HandK.RunB.lean ====
/-
  The body at a key block after the first, not after the query block and not the last: the block's contribution is
  added to both accumulators; the output block is not touched.
-/
import proofs.«177288_j29240137351227_1_alg».proof.Proof.HandK.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores the body leaves in the buffers it writes (latest first), with the proof that on whole memrefs — the
    three inputs at their blocks, the output block and both accumulators at the given contents — it runs to a
    continuation that gets every buffer it does not write back as it was and every buffer it writes with those
    stores written. -/
noncomputable def kernelRunB (c : Dev nD) (i : grid0.Coords) (arg3 : Memref sig .tc .vmem S1x512x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S512x64 .f32) (harg7 : arg7.IsWhole) (arg8 : Memref sig .tc .vmem S512x1 .f32) (harg8 : arg8.IsWhole) (hc1 : ¬cond1 i) (hc2 : cond2 i) (hc3 : ¬cond3 i)
    (x0 x1 x2 : Vec F S1x512x64 .f32) (xs0 : Vec F S512x64 .f32) (xs1 : Vec F S512x1 .f32) :
    Σ' (LS0 : List (View.Piece (Elt F) S512x64 .f32)), { LS1 : List (View.Piece (Elt F) S512x1 .f32) //
      ∀ (xi3 : Vec F S1x512x64 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3 ∗ owns (c : Thread nD τ) arg7 fullShare xs0 ∗ owns (c : Thread nD τ) arg8 fullShare xs1
            ∗ (iprop(owns (c : Thread nD τ) arg3 fullShare x0 ∗ owns (c : Thread nD τ) arg4 fullShare x1 ∗ owns (c : Thread nD τ) arg5 fullShare x2
                ∗ owns (c : Thread nD τ) arg6 fullShare xi3
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc0__attn_kernel i arg3 harg3 arg4 harg4 arg5 harg5 arg6 harg6 arg7 harg7 arg8 harg8) K } := by
  refine ⟨?_, ?_, fun xi3 E K => ?run⟩
  case run =>
    simp only [cc0__attn_kernel_eq_skeleton, k0_part1_eq_skeleton]; unfold cc0__attn_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg3.eq_unread hf0; obtain rfl := harg4.eq_unread hf1; obtain rfl := harg5.eq_unread hf2
    obtain rfl := harg6.eq_unread hf3; obtain rfl := harg7.eq_unread hfs0; obtain rfl := harg8.eq_unread hfs1
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]
    · iexists _; iexact HS0
    iexists _; iexact HS1

end Cert.Kernel.Hand

end
-- ==== Proof.HandK.RunC.lean ====
/-
  The body at the last key block when it is not after the query block (query block 3): the block's contribution
  is added to both accumulators, and their quotient is stored into the output block.
-/
import proofs.«177288_j29240137351227_1_alg».proof.Proof.HandK.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores the body leaves in the buffers it writes (latest first), with the proof that on whole memrefs — the
    three inputs at their blocks, the output block and both accumulators at the given contents — it runs to a
    continuation that gets every buffer it does not write back as it was and every buffer it writes with those
    stores written. -/
noncomputable def kernelRunC (c : Dev nD) (i : grid0.Coords) (arg3 : Memref sig .tc .vmem S1x512x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S512x64 .f32) (harg7 : arg7.IsWhole) (arg8 : Memref sig .tc .vmem S512x1 .f32) (harg8 : arg8.IsWhole) (hc1 : ¬cond1 i) (hc2 : cond2 i) (hc3 : cond3 i)
    (x0 x1 x2 : Vec F S1x512x64 .f32) (xs0 : Vec F S512x64 .f32) (xs1 : Vec F S512x1 .f32) :
    Σ' (L3 : List (View.Piece (Elt F) S1x512x64 .f32)) (LS0 : List (View.Piece (Elt F) S512x64 .f32)), { LS1 : List (View.Piece (Elt F) S512x1 .f32) //
      ∀ (xi3 : Vec F S1x512x64 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3 ∗ owns (c : Thread nD τ) arg7 fullShare xs0 ∗ owns (c : Thread nD τ) arg8 fullShare xs1
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc0__attn_kernel i arg3 harg3 arg4 harg4 arg5 harg5 arg6 harg6 arg7 harg7 arg8 harg8) K } := by
  refine ⟨?_, ?_, ?_, fun xi3 E K => ?run⟩
  case run =>
    simp only [cc0__attn_kernel_eq_skeleton, k0_part1_eq_skeleton]; unfold cc0__attn_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg3.eq_unread hf0; obtain rfl := harg4.eq_unread hf1; obtain rfl := harg5.eq_unread hf2
    obtain rfl := harg6.eq_unread hf3; obtain rfl := harg7.eq_unread hfs0; obtain rfl := harg8.eq_unread hfs1
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; iexact H3
    isplitl [HS0]
    · iexists _; iexact HS0
    iexists _; iexact HS1

end Cert.Kernel.Hand

end
-- ==== Proof.HandK.RunD.lean ====
/-
  The body at a key block after the query block that is not the last: nothing is stored anywhere.
-/
import proofs.«177288_j29240137351227_1_alg».proof.Proof.HandK.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs — the three inputs at their blocks, the output block and both accumulators at the given contents —
    the body runs to a continuation that gets every buffer back as it was. -/
theorem kernelRunD (c : Dev nD) (i : grid0.Coords) (arg3 : Memref sig .tc .vmem S1x512x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S512x64 .f32) (harg7 : arg7.IsWhole) (arg8 : Memref sig .tc .vmem S512x1 .f32) (harg8 : arg8.IsWhole) (hc1 : ¬cond1 i) (hc2 : ¬cond2 i) (hc3 : ¬cond3 i)
    (x0 x1 x2 : Vec F S1x512x64 .f32) (xs0 : Vec F S512x64 .f32) (xs1 : Vec F S512x1 .f32) :
    (∀ (xi3 : Vec F S1x512x64 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3 ∗ owns (c : Thread nD τ) arg7 fullShare xs0 ∗ owns (c : Thread nD τ) arg8 fullShare xs1
            ∗ (iprop(owns (c : Thread nD τ) arg3 fullShare x0 ∗ owns (c : Thread nD τ) arg4 fullShare x1 ∗ owns (c : Thread nD τ) arg5 fullShare x2
                ∗ owns (c : Thread nD τ) arg6 fullShare xi3
                ∗ owns (c : Thread nD τ) arg7 fullShare xs0
                ∗ owns (c : Thread nD τ) arg8 fullShare xs1) -∗ K ⟨⟩))
          ⊢ wp frame (wpE (defs₀ (F := F)) Variants.none c none) E (cc0__attn_kernel i arg3 harg3 arg4 harg4 arg5 harg5 arg6 harg6 arg7 harg7 arg8 harg8) K) := by
  intro xi3 E K
  ·
    simp only [cc0__attn_kernel_eq_skeleton, k0_part1_eq_skeleton]; unfold cc0__attn_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg3.eq_unread hf0; obtain rfl := harg4.eq_unread hf1; obtain rfl := harg5.eq_unread hf2
    obtain rfl := harg6.eq_unread hf3; obtain rfl := harg7.eq_unread hfs0; obtain rfl := harg8.eq_unread hfs1
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]
    · iexists _; isplitr; · ipureintro; exact harg7.read_unread _
      iexact HS0
    iexists _; isplitr; · ipureintro; exact harg8.read_unread _
    iexact HS1

end Cert.Kernel.Hand

end
-- ==== Proof.HandK.RunE.lean ====
/-
  The body at the last key block when it is after the query block: the accumulators are left as they are and
  their quotient is stored into the output block.
-/
import proofs.«177288_j29240137351227_1_alg».proof.Proof.HandK.RunD

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores the body leaves in the buffers it writes (latest first), with the proof that on whole memrefs — the
    three inputs at their blocks, the output block and both accumulators at the given contents — it runs to a
    continuation that gets every buffer it does not write back as it was and every buffer it writes with those
    stores written. -/
noncomputable def kernelRunE (c : Dev nD) (i : grid0.Coords) (arg3 : Memref sig .tc .vmem S1x512x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S512x64 .f32) (harg7 : arg7.IsWhole) (arg8 : Memref sig .tc .vmem S512x1 .f32) (harg8 : arg8.IsWhole) (hc1 : ¬cond1 i) (hc2 : ¬cond2 i) (hc3 : cond3 i)
    (x0 x1 x2 : Vec F S1x512x64 .f32) (xs0 : Vec F S512x64 .f32) (xs1 : Vec F S512x1 .f32) :
    { L3 : List (View.Piece (Elt F) S1x512x64 .f32) //
      ∀ (xi3 : Vec F S1x512x64 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3 ∗ owns (c : Thread nD τ) arg7 fullShare xs0 ∗ owns (c : Thread nD τ) arg8 fullShare xs1
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ owns (c : Thread nD τ) arg7 fullShare xs0
                ∗ owns (c : Thread nD τ) arg8 fullShare xs1) -∗ K ⟨⟩))
          ⊢ wp frame (wpE (defs₀ (F := F)) Variants.none c none) E (cc0__attn_kernel i arg3 harg3 arg4 harg4 arg5 harg5 arg6 harg6 arg7 harg7 arg8 harg8) K } := by
  refine ⟨?_, fun xi3 E K => ?run⟩
  case run =>
    simp only [cc0__attn_kernel_eq_skeleton, k0_part1_eq_skeleton]; unfold cc0__attn_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg3.eq_unread hf0; obtain rfl := harg4.eq_unread hf1; obtain rfl := harg5.eq_unread hf2
    obtain rfl := harg6.eq_unread hf3; obtain rfl := harg7.eq_unread hfs0; obtain rfl := harg8.eq_unread hfs1
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; iexact H3
    isplitl [HS0]
    · iexists _; isplitr; · ipureintro; exact harg7.read_unread _
      iexact HS0
    iexists _; isplitr; · ipureintro; exact harg8.read_unread _
    iexact HS1

end Cert.Kernel.Hand

end
-- ==== Proof.HandK.Pieces.lean ====
/-
  What the body leaves in each buffer it writes, case by case, as the state transition.

  Every store of the body covers its whole buffer, so a buffer reads back as the payload of the last store into it;
  a load after a store reads that store's payload, and a load of an untouched buffer reads what the body was handed.
  Unfolding the payloads' arguments that way, the two accumulators end at `step` of what they held, and the output
  block (where it is stored) at the quotient payload of the accumulators' final contents.
-/
import proofs.«177288_j29240137351227_1_alg».proof.Proof.HandK.RunE
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of the whole-buffer rectangles, however spelt. -/
theorem hz2 : (![0, 0] : Fin 2 → ℕ) = fun _ => 0 := by funext a; fin_cases a <;> rfl
theorem hz3 : (![0, 0, 0] : Fin 3 → ℕ) = fun _ => 0 := by funext a; fin_cases a <;> rfl

/-- A store through the whole-buffer rectangle (zero offsets, the buffer's own extents), the latest of a list of
    stores, reads back as its payload, whatever was stored before it and whatever the buffer held. -/
theorem read_writes_unit_zero {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  subst h; funext y
  have e := View.read_writes_cons_emb v f (Rect.whole S) w L y
  rw [Rect.emb_whole_apply] at e
  exact e

section
variable (c : Dev nD) (i : grid0.Coords) (arg3 : Memref sig .tc .vmem S1x512x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S512x64 .f32) (harg7 : arg7.IsWhole) (arg8 : Memref sig .tc .vmem S512x1 .f32) (harg8 : arg8.IsWhole)
  (x0 x1 x2 : Vec F S1x512x64 .f32) (xs0 : Vec F S512x64 .f32) (xs1 : Vec F S512x1 .f32)
  (v0 : View sig .tc .vmem S512x64 .f32) (f0 : v0.ty.Contents (Elt F))
  (v1 : View sig .tc .vmem S512x1 .f32) (f1 : v1.ty.Contents (Elt F))
  (v3 : View sig .tc .vmem S1x512x64 .f32) (f3 : v3.ty.Contents (Elt F))

/-- Key block 0: reset, then this block added. -/
theorem soutA0 (hc1 : cond1 i) (hc2 : cond2 i) (hc3 : ¬cond3 i) :
    v0.read (Elt F) (v0.writes (Elt F) f0 (kernelRunA c i arg3 harg3 arg4 harg4 arg5 harg5 arg6 harg6 arg7 harg7 arg8 harg8 hc1 hc2 hc3 x0 x1 x2).1) = (step i x0 x1 x2 (xs0, xs1)).1 := by
  unfold kernelRunA; dsimp only; sl_unfold_words
  rw [read_writes_unit_zero (S := S512x64) _ _ hz2]
  simp only [View.readAt_eq_ld, harg3.read_unread, harg4.read_unread, harg5.read_unread,
    View.ld_unit_zero (S := S1x512x64) hz3, View.readCov_unit_zero (S := S512x64) _ hz2]
  unfold step; rw [if_pos hc1, if_pos hc2]

theorem soutA1 (hc1 : cond1 i) (hc2 : cond2 i) (hc3 : ¬cond3 i) :
    v1.read (Elt F) (v1.writes (Elt F) f1 (kernelRunA c i arg3 harg3 arg4 harg4 arg5 harg5 arg6 harg6 arg7 harg7 arg8 harg8 hc1 hc2 hc3 x0 x1 x2).2.1) = (step i x0 x1 x2 (xs0, xs1)).2 := by
  unfold kernelRunA; dsimp only; sl_unfold_words
  rw [read_writes_unit_zero (S := S512x1) _ _ hz2]
  simp only [View.readAt_eq_ld, harg3.read_unread, harg4.read_unread,
    View.ld_unit_zero (S := S1x512x64) hz3, View.readCov_unit_zero (S := S512x1) _ hz2]
  unfold step; rw [if_pos hc1, if_pos hc2]

/-- A later key block not after the query block: this block added to what was there. -/
theorem soutB0 (hc1 : ¬cond1 i) (hc2 : cond2 i) (hc3 : ¬cond3 i) :
    v0.read (Elt F) (v0.writes (Elt F) f0 (kernelRunB c i arg3 harg3 arg4 harg4 arg5 harg5 arg6 harg6 arg7 harg7 arg8 harg8 hc1 hc2 hc3 x0 x1 x2 xs0 xs1).1) = (step i x0 x1 x2 (xs0, xs1)).1 := by
  unfold kernelRunB; dsimp only; sl_unfold_words
  rw [read_writes_unit_zero (S := S512x64) _ _ hz2]
  simp only [View.readAt_eq_ld, harg3.read_unread, harg4.read_unread, harg5.read_unread, harg7.read_unread,
    View.ld_unit_zero (S := S1x512x64) hz3, View.ld_unit_zero (S := S512x64) hz2]
  unfold step; rw [if_neg hc1, if_pos hc2]

theorem soutB1 (hc1 : ¬cond1 i) (hc2 : cond2 i) (hc3 : ¬cond3 i) :
    v1.read (Elt F) (v1.writes (Elt F) f1 (kernelRunB c i arg3 harg3 arg4 harg4 arg5 harg5 arg6 harg6 arg7 harg7 arg8 harg8 hc1 hc2 hc3 x0 x1 x2 xs0 xs1).2.1) = (step i x0 x1 x2 (xs0, xs1)).2 := by
  unfold kernelRunB; dsimp only; sl_unfold_words
  rw [read_writes_unit_zero (S := S512x1) _ _ hz2]
  simp only [View.readAt_eq_ld, harg3.read_unread, harg4.read_unread, harg8.read_unread,
    View.ld_unit_zero (S := S1x512x64) hz3, View.ld_unit_zero (S := S512x1) hz2]
  unfold step; rw [if_neg hc1, if_pos hc2]

/-- The last key block, not after the query block: this block added, and the quotient stored. -/
theorem soutC0 (hc1 : ¬cond1 i) (hc2 : cond2 i) (hc3 : cond3 i) :
    v0.read (Elt F) (v0.writes (Elt F) f0 (kernelRunC c i arg3 harg3 arg4 harg4 arg5 harg5 arg6 harg6 arg7 harg7 arg8 harg8 hc1 hc2 hc3 x0 x1 x2 xs0 xs1).2.1) = (step i x0 x1 x2 (xs0, xs1)).1 := by
  unfold kernelRunC; dsimp only; sl_unfold_words
  rw [read_writes_unit_zero (S := S512x64) _ _ hz2]
  simp only [View.readAt_eq_ld, harg3.read_unread, harg4.read_unread, harg5.read_unread, harg7.read_unread,
    View.ld_unit_zero (S := S1x512x64) hz3, View.ld_unit_zero (S := S512x64) hz2]
  unfold step; rw [if_neg hc1, if_pos hc2]

theorem soutC1 (hc1 : ¬cond1 i) (hc2 : cond2 i) (hc3 : cond3 i) :
    v1.read (Elt F) (v1.writes (Elt F) f1 (kernelRunC c i arg3 harg3 arg4 harg4 arg5 harg5 arg6 harg6 arg7 harg7 arg8 harg8 hc1 hc2 hc3 x0 x1 x2 xs0 xs1).2.2.1) = (step i x0 x1 x2 (xs0, xs1)).2 := by
  unfold kernelRunC; dsimp only; sl_unfold_words
  rw [read_writes_unit_zero (S := S512x1) _ _ hz2]
  simp only [View.readAt_eq_ld, harg3.read_unread, harg4.read_unread, harg8.read_unread,
    View.ld_unit_zero (S := S1x512x64) hz3, View.ld_unit_zero (S := S512x1) hz2]
  unfold step; rw [if_neg hc1, if_pos hc2]

theorem outC3 (hc1 : ¬cond1 i) (hc2 : cond2 i) (hc3 : cond3 i) :
    v3.read (Elt F) (v3.writes (Elt F) f3 (kernelRunC c i arg3 harg3 arg4 harg4 arg5 harg5 arg6 harg6 arg7 harg7 arg8 harg8 hc1 hc2 hc3 x0 x1 x2 xs0 xs1).1)
      = k0_pay4 (step i x0 x1 x2 (xs0, xs1)).1 (step i x0 x1 x2 (xs0, xs1)).2 := by
  unfold kernelRunC; dsimp only; sl_unfold_words
  rw [read_writes_unit_zero (S := S1x512x64) _ _ hz3]
  simp only [View.readAt_eq_ld, harg3.read_unread, harg4.read_unread, harg5.read_unread, harg7.read_unread, harg8.read_unread,
    View.ld_unit_zero (S := S1x512x64) hz3, View.ld_unit_zero (S := S512x64) hz2, View.ld_unit_zero (S := S512x1) hz2,
    View.readCov_unit_zero (S := S512x64) _ hz2, View.readCov_unit_zero (S := S512x1) _ hz2]
  unfold step; rw [if_neg hc1, if_pos hc2]

/-- The last key block, after the query block: the accumulators kept, their quotient stored. -/
theorem outE3 (hc1 : ¬cond1 i) (hc2 : ¬cond2 i) (hc3 : cond3 i) :
    v3.read (Elt F) (v3.writes (Elt F) f3 (kernelRunE c i arg3 harg3 arg4 harg4 arg5 harg5 arg6 harg6 arg7 harg7 arg8 harg8 hc1 hc2 hc3 x0 x1 x2 xs0 xs1).1)
      = k0_pay4 (step i x0 x1 x2 (xs0, xs1)).1 (step i x0 x1 x2 (xs0, xs1)).2 := by
  unfold kernelRunE; dsimp only; sl_unfold_words
  rw [read_writes_unit_zero (S := S1x512x64) _ _ hz3]
  simp only [View.readAt_eq_ld, harg7.read_unread, harg8.read_unread,
    View.ld_unit_zero (S := S512x64) hz2, View.ld_unit_zero (S := S512x1) hz2]
  unfold step; rw [if_neg hc1, if_neg hc2]

/-- Where nothing is added (a key block after the query block, not key block 0) the state is kept. -/
theorem step_keep (hc1 : ¬cond1 i) (hc2 : ¬cond2 i) : step i x0 x1 x2 (xs0, xs1) = (xs0, xs1) := by
  unfold step; rw [if_neg hc1, if_neg hc2]

/-- At key block 0 the state before does not matter. -/
theorem step_reset (hc1 : cond1 i) (s s' : Vec F S512x64 .f32 × Vec F S512x1 .f32) : step i x0 x1 x2 s = step i x0 x1 x2 s' := by
  unfold step; rw [if_pos hc1, if_pos hc1]

end

end Cert.Kernel.Hand

end
-- ==== Proof.HandK.Body.lean ====
/-
  The body obligation, the launch, and the frame.

  At every grid point the body, called on the point's staging buffers and the two accumulators, runs and leaves each
  buffer as the proof data says: which of the five control cases the point is in is read off its coordinates, that
  case's run applies, and what it leaves in the accumulators is the state transition of what the point before left
  (at the first point: of anything, since key block 0 resets).  The launch then gives the run of the whole program,
  whose argument arrays end as they were.
-/
import proofs.«177288_j29240137351227_1_alg».proof.Proof.HandK.Pieces

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

/-- The output block at a key block 3 is live: the body's store is what the window leaves. -/
theorem leaves3_live (c : Dev nD) (t : Fin cfg0.N) (h3 : cond3 (grid0.coords t)) :
    (dats m 0 c).leavesExact 3 t = owns (c : Thread nD τ) (ms3 t) fullShare ((dats m 0 c).after 3 t) := by
  unfold Dat.leavesExact; rw [liveAt3 t h3]

set_option maxHeartbeats 4800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [liveAt0 t], after0]
  rw [show (dats m 0 c).leavesExact 1 t = owns (c : Thread nD τ) (ms1 t) fullShare ((dats m 0 c).after 1 t) from by
    unfold Dat.leavesExact; rw [liveAt1 t], after1]
  rw [show (dats m 0 c).leavesExact 2 t = owns (c : Thread nD τ) (ms2 t) fullShare ((dats m 0 c).after 2 t) from by
    unfold Dat.leavesExact; rw [liveAt2 t], after2]
  rw [accAt_eq m c t]
  by_cases h1 : cond1 (grid0.coords t)
  · have h2 : cond2 (grid0.coords t) := (hcond2 t).mpr (by have := (hcond1 t).mp h1; omega)
    have h3 : ¬cond3 (grid0.coords t) := fun h => by have := (hcond1 t).mp h1; have := (hcond3 t).mp h; omega
    rw [Dat.leavesExact_idle (dats m 0 c) 3 t (idleAt3 t h3) (noFlush3 t h3)]
    by_cases hz : t.val = 0
    · rw [PhiS_castSucc m c t, PhiS_zero m c _ _ hz, PhiA0_eq]
      iintro ⟨⟨⟨⟨%ds0, HS0⟩, ⟨%ds1, HS1⟩⟩, Hg⟩, Ho, ⟨%d0, H0⟩, ⟨%d1, H1⟩, ⟨%d2, H2⟩, ⟨%d3, H3⟩⟩
      iapply ((kernelRunA c (grid0.coords t) (ms0 t) (hs0 t) (ms1 t) (hs1 t) (ms2 t) (hs2 t) (ms3 t) (hs3 t) scM0 (Memref.isWhole_whole _) scM1 (Memref.isWhole_whole _) h1 h2 h3 (xq m c t) (xk m c t) (xv m c t)).2.2 _ ds0 ds1 Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hg]
      · isplitl [HS0 HS1]
        · isplitl [HS0]
          · unfold owns; iexists _; isplitr
            swap; · iexact HS0
            ipureintro; exact soutA0 c (grid0.coords t) (ms0 t) (hs0 t) (ms1 t) (hs1 t) (ms2 t) (hs2 t) (ms3 t) (hs3 t) scM0 (Memref.isWhole_whole _) scM1 (Memref.isWhole_whole _) (xq m c t) (xk m c t) (xv m c t) (prevAt m c t.val t.isLt).1 (prevAt m c t.val t.isLt).2 _ _ h1 h2 h3
          unfold owns; iexists _; isplitr
          swap; · iexact HS1
          ipureintro; exact soutA1 c (grid0.coords t) (ms0 t) (hs0 t) (ms1 t) (hs1 t) (ms2 t) (hs2 t) (ms3 t) (hs3 t) scM0 (Memref.isWhole_whole _) scM1 (Memref.isWhole_whole _) (xq m c t) (xk m c t) (xv m c t) (prevAt m c t.val t.isLt).1 (prevAt m c t.val t.isLt).2 _ _ h1 h2 h3
        iexact Hg
      isplitl [Ho]; · iexact Ho
      isplitl [H0]; · iexact H0
      isplitl [H1]; · iexact H1
      isplitl [H2]; · iexact H2
      iexists _; iexact H3
    · rw [PhiS_castSucc m c t, PhiS_pos m c _ _ hz]
      iintro ⟨⟨⟨HS0, HS1⟩, Hg⟩, Ho, ⟨%d0, H0⟩, ⟨%d1, H1⟩, ⟨%d2, H2⟩, ⟨%d3, H3⟩⟩
      iapply ((kernelRunA c (grid0.coords t) (ms0 t) (hs0 t) (ms1 t) (hs1 t) (ms2 t) (hs2 t) (ms3 t) (hs3 t) scM0 (Memref.isWhole_whole _) scM1 (Memref.isWhole_whole _) h1 h2 h3 (xq m c t) (xk m c t) (xv m c t)).2.2 _ _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hg]
      · isplitl [HS0 HS1]
        · isplitl [HS0]
          · unfold owns; iexists _; isplitr
            swap; · iexact HS0
            ipureintro; exact soutA0 c (grid0.coords t) (ms0 t) (hs0 t) (ms1 t) (hs1 t) (ms2 t) (hs2 t) (ms3 t) (hs3 t) scM0 (Memref.isWhole_whole _) scM1 (Memref.isWhole_whole _) (xq m c t) (xk m c t) (xv m c t) (prevAt m c t.val t.isLt).1 (prevAt m c t.val t.isLt).2 _ _ h1 h2 h3
          unfold owns; iexists _; isplitr
          swap; · iexact HS1
          ipureintro; exact soutA1 c (grid0.coords t) (ms0 t) (hs0 t) (ms1 t) (hs1 t) (ms2 t) (hs2 t) (ms3 t) (hs3 t) scM0 (Memref.isWhole_whole _) scM1 (Memref.isWhole_whole _) (xq m c t) (xk m c t) (xv m c t) (prevAt m c t.val t.isLt).1 (prevAt m c t.val t.isLt).2 _ _ h1 h2 h3
        iexact Hg
      isplitl [Ho]; · iexact Ho
      isplitl [H0]; · iexact H0
      isplitl [H1]; · iexact H1
      isplitl [H2]; · iexact H2
      iexists _; iexact H3
  · have hz : t.val ≠ 0 := fun h => h1 ((hcond1 t).mpr (by rw [h]))
    rw [PhiS_castSucc m c t, PhiS_pos m c _ _ hz, prevAt_pos m c t.val t.isLt hz]
    by_cases h2 : cond2 (grid0.coords t)
    · by_cases h3 : cond3 (grid0.coords t)
      · rw [leaves3_live m c t h3, after3]
        unfold outAt; rw [accAt_eq m c t, prevAt_pos m c t.val t.isLt hz]
        iintro ⟨⟨⟨HS0, HS1⟩, Hg⟩, Ho, ⟨%d0, H0⟩, ⟨%d1, H1⟩, ⟨%d2, H2⟩, ⟨%d3, H3⟩⟩
        iapply ((kernelRunC c (grid0.coords t) (ms0 t) (hs0 t) (ms1 t) (hs1 t) (ms2 t) (hs2 t) (ms3 t) (hs3 t) scM0 (Memref.isWhole_whole _) scM1 (Memref.isWhole_whole _) h1 h2 h3 (xq m c t) (xk m c t) (xv m c t) _ _).2.2.2 _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, ⟨%e3, H3⟩, ⟨%es0, HS0⟩, ⟨%es1, HS1⟩⟩
        isplitl [HS0 HS1 Hg]
        · isplitl [HS0 HS1]
          · isplitl [HS0]
            · unfold owns; iexists _; isplitr
              swap; · iexact HS0
              ipureintro; exact soutC0 c (grid0.coords t) (ms0 t) (hs0 t) (ms1 t) (hs1 t) (ms2 t) (hs2 t) (ms3 t) (hs3 t) scM0 (Memref.isWhole_whole _) scM1 (Memref.isWhole_whole _) (xq m c t) (xk m c t) (xv m c t) _ _ _ _ h1 h2 h3
            unfold owns; iexists _; isplitr
            swap; · iexact HS1
            ipureintro; exact soutC1 c (grid0.coords t) (ms0 t) (hs0 t) (ms1 t) (hs1 t) (ms2 t) (hs2 t) (ms3 t) (hs3 t) scM0 (Memref.isWhole_whole _) scM1 (Memref.isWhole_whole _) (xq m c t) (xk m c t) (xv m c t) _ _ _ _ h1 h2 h3
          iexact Hg
        isplitl [Ho]; · iexact Ho
        isplitl [H0]; · iexact H0
        isplitl [H1]; · iexact H1
        isplitl [H2]; · iexact H2
        unfold owns; iexists _; isplitr
        swap; · iexact H3
        ipureintro; exact outC3 c (grid0.coords t) (ms0 t) (hs0 t) (ms1 t) (hs1 t) (ms2 t) (hs2 t) (ms3 t) (hs3 t) scM0 (Memref.isWhole_whole _) scM1 (Memref.isWhole_whole _) (xq m c t) (xk m c t) (xv m c t) _ _ _ _ h1 h2 h3
      · rw [Dat.leavesExact_idle (dats m 0 c) 3 t (idleAt3 t h3) (noFlush3 t h3)]
        iintro ⟨⟨⟨HS0, HS1⟩, Hg⟩, Ho, ⟨%d0, H0⟩, ⟨%d1, H1⟩, ⟨%d2, H2⟩, ⟨%d3, H3⟩⟩
        iapply ((kernelRunB c (grid0.coords t) (ms0 t) (hs0 t) (ms1 t) (hs1 t) (ms2 t) (hs2 t) (ms3 t) (hs3 t) scM0 (Memref.isWhole_whole _) scM1 (Memref.isWhole_whole _) h1 h2 h3 (xq m c t) (xk m c t) (xv m c t) _ _).2.2 _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, ⟨%es1, HS1⟩⟩
        isplitl [HS0 HS1 Hg]
        · isplitl [HS0 HS1]
          · isplitl [HS0]
            · unfold owns; iexists _; isplitr
              swap; · iexact HS0
              ipureintro; exact soutB0 c (grid0.coords t) (ms0 t) (hs0 t) (ms1 t) (hs1 t) (ms2 t) (hs2 t) (ms3 t) (hs3 t) scM0 (Memref.isWhole_whole _) scM1 (Memref.isWhole_whole _) (xq m c t) (xk m c t) (xv m c t) _ _ _ _ h1 h2 h3
            unfold owns; iexists _; isplitr
            swap; · iexact HS1
            ipureintro; exact soutB1 c (grid0.coords t) (ms0 t) (hs0 t) (ms1 t) (hs1 t) (ms2 t) (hs2 t) (ms3 t) (hs3 t) scM0 (Memref.isWhole_whole _) scM1 (Memref.isWhole_whole _) (xq m c t) (xk m c t) (xv m c t) _ _ _ _ h1 h2 h3
          iexact Hg
        isplitl [Ho]; · iexact Ho
        isplitl [H0]; · iexact H0
        isplitl [H1]; · iexact H1
        isplitl [H2]; · iexact H2
        iexists _; iexact H3
    · rw [step_keep (grid0.coords t) (xq m c t) (xk m c t) (xv m c t) _ _ h1 h2]
      by_cases h3 : cond3 (grid0.coords t)
      · rw [leaves3_live m c t h3, after3]
        unfold outAt; rw [accAt_eq m c t, prevAt_pos m c t.val t.isLt hz, step_keep (grid0.coords t) (xq m c t) (xk m c t) (xv m c t) _ _ h1 h2]
        iintro ⟨⟨⟨HS0, HS1⟩, Hg⟩, Ho, ⟨%d0, H0⟩, ⟨%d1, H1⟩, ⟨%d2, H2⟩, ⟨%d3, H3⟩⟩
        iapply ((kernelRunE c (grid0.coords t) (ms0 t) (hs0 t) (ms1 t) (hs1 t) (ms2 t) (hs2 t) (ms3 t) (hs3 t) scM0 (Memref.isWhole_whole _) scM1 (Memref.isWhole_whole _) h1 h2 h3 (xq m c t) (xk m c t) (xv m c t) _ _).2 _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, ⟨%e3, H3⟩, HS0, HS1⟩
        isplitl [HS0 HS1 Hg]
        · isplitl [HS0 HS1]
          · isplitl [HS0]; · iexact HS0
            iexact HS1
          iexact Hg
        isplitl [Ho]; · iexact Ho
        isplitl [H0]; · iexact H0
        isplitl [H1]; · iexact H1
        isplitl [H2]; · iexact H2
        unfold owns; iexists _; isplitr
        swap; · iexact H3
        ipureintro
        refine (outE3 c (grid0.coords t) (ms0 t) (hs0 t) (ms1 t) (hs1 t) (ms2 t) (hs2 t) (ms3 t) (hs3 t) scM0 (Memref.isWhole_whole _) scM1 (Memref.isWhole_whole _) (xq m c t) (xk m c t) (xv m c t) _ _ _ _ h1 h2 h3).trans ?_
        rw [step_keep (grid0.coords t) (xq m c t) (xk m c t) (xv m c t) _ _ h1 h2]
      · rw [Dat.leavesExact_idle (dats m 0 c) 3 t (idleAt3 t h3) (noFlush3 t h3)]
        iintro ⟨⟨⟨HS0, HS1⟩, Hg⟩, Ho, ⟨%d0, H0⟩, ⟨%d1, H1⟩, ⟨%d2, H2⟩, ⟨%d3, H3⟩⟩
        iapply ((kernelRunD c (grid0.coords t) (ms0 t) (hs0 t) (ms1 t) (hs1 t) (ms2 t) (hs2 t) (ms3 t) (hs3 t) scM0 (Memref.isWhole_whole _) scM1 (Memref.isWhole_whole _) h1 h2 h3 (xq m c t) (xk m c t) (xv m c t) _ _) _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, HS0, HS1⟩
        isplitl [HS0 HS1 Hg]
        · isplitl [HS0 HS1]
          · isplitl [HS0]; · iexact HS0
            iexact HS1
          iexact Hg
        isplitl [Ho]; · iexact Ho
        isplitl [H0]; · iexact H0
        isplitl [H1]; · iexact H1
        isplitl [H2]; · iexact H2
        iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the launch's back: the accumulators' contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

theorem hout (c : Dev nD) : (dats m 0 c).Φ (Fin.last cfg0.N) ⊢ Pipeline.ΦA spec0 c :=
  Phi_out m c _ (by rw [Fin.val_last]; have : cfg0.N = 256 := N_0; omega)

/-! ## The run and the frame -/

set_option backward.isDefEq.respectTransparency.types false in
/-- Every weakly fair execution of the program terminates, every array of the pipeline ending at what the proof data
    computes and every other buffer at what the host operations after the region make of the region's exit. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The program runs, faults nowhere, and leaves its three argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Hand

end
-- ==== Proof.Hand.Acc.lean ====
/-
  The kernel's state between grid points, and the pipeline's proof data over it.

  A grid point is `(head, query block, key block)`; the body keeps two accumulators in scratch memory between
  the points of one `(head, query block)`: the weighted sum of value rows (512 × 64) and the sum of weights
  (512 × 1).  At key block 0 it resets both to zero; where the key block is not after the query block it adds that
  block's contribution to both; at key block 3 it stores their quotient (ε added below) into the output block.
  `step` is that transition as a pure function of the point's three input blocks and the state before it, written
  over the body's own store payloads; `accAt` is the state after each point by recursion on the point; the region's
  invariant `PhiS` holds the two scratch buffers at `accAt` of the point before.
-/
import proofs.«177288_j29240137351227_1_alg».proof.Proof.Gen.KernelIdeal.Frame
import proofs.«177288_j29240137351227_1_alg».proof.Proof.Gen.KernelIdeal.Skeleton

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's three branch conditions -/

/-- Key block 0: the accumulators are reset. -/
abbrev cond1 (i : grid0.Coords) : Prop :=
  (Scalar.cmpi .ne (Scalar.extui (Scalar.cmpi .eq (BitVec.ofNat 32 (i 2).val) 0#32)) 0#32) = 1#1
/-- The key block is not after the query block: its contribution is added. -/
abbrev cond2 (i : grid0.Coords) : Prop :=
  (Scalar.cmpi .ne (Scalar.extui (Scalar.cmpi .sle (BitVec.ofNat 32 (i 2).val) (BitVec.ofNat 32 (i 1).val))) 0#32) = 1#1
/-- Key block 3, the last: the quotient is stored. -/
abbrev cond3 (i : grid0.Coords) : Prop := k0_cond3 i = 1#1

/-- Point `t` is `head · 16 + query block · 4 + key block`; the three conditions in those terms, decided over the
    256 points. -/
theorem hcond1 : ∀ t : Fin cfg0.N, cond1 (grid0.coords t) ↔ t.val % 4 = 0 :=
  (by decide +kernel : ∀ t : Fin grid0.N, cond1 (grid0.coords t) ↔ t.val % 4 = 0)
theorem hcond2 : ∀ t : Fin cfg0.N, cond2 (grid0.coords t) ↔ t.val % 4 ≤ t.val / 4 % 4 :=
  (by decide +kernel : ∀ t : Fin grid0.N, cond2 (grid0.coords t) ↔ t.val % 4 ≤ t.val / 4 % 4)
theorem hcond3 : ∀ t : Fin cfg0.N, cond3 (grid0.coords t) ↔ t.val % 4 = 3 :=
  (by decide +kernel : ∀ t : Fin grid0.N, cond3 (grid0.coords t) ↔ t.val % 4 = 3)

/-! ## Where the windows are idle -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
/-- Away from key block 3 the body stores nothing into the output block, and the block is not written back. -/
theorem idleAt3 : ∀ t : Fin cfg0.N, ¬cond3 (grid0.coords t) → cfg0.idle 3 (grid0.coords t) = true := by decide +kernel
theorem noFlush3 : ∀ t : Fin cfg0.N, ¬cond3 (grid0.coords t) → (cfg0.win 3).flush t = false := by decide +kernel
/-- At key block 3 it stores the whole block. -/
theorem liveAt3 : ∀ t : Fin cfg0.N, cond3 (grid0.coords t) → cfg0.idle 3 (grid0.coords t) = false := by decide +kernel

/-! ## The memrefs the body is called with -/

abbrev ms0 (t : Fin cfg0.N) : Memref sig .tc .vmem S1x512x64 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x512x64 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x512x64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512x64 .f32 := win0_3.stage (cfg0.slots t 3)
abbrev hs3 (t : Fin cfg0.N) : (ms3 t).IsWhole := hstage0_3 ((cfg0.slots t 3).cast nbuf0_3)
/-- The two accumulators: scratch buffers of the kernel's own. -/
abbrev scM0 : Memref sig .tc .vmem S512x64 .f32 := Memref.whole cc0_scratch0
abbrev scM1 : Memref sig .tc .vmem S512x1 .f32 := Memref.whole cc0_scratch1
/-- Views through which a buffer's contents after a list of stores are stated. -/
abbrev VO3 : View sig .tc .vmem S1x512x64 .f32 := (Memref.whole cc0_stg3_0 : Memref sig .tc .vmem S1x512x64 .f32).view
abbrev VS0 : View sig .tc .vmem S512x64 .f32 := scM0.view
abbrev VS1 : View sig .tc .vmem S512x1 .f32 := scM1.view

/-- What the launch hands the region: the two accumulators at anything, the generator register at some state. -/
theorem PhiA0_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-! ## The state and its transition -/

/-- One point's transition of the two accumulators `(weighted sum, sum of weights)`, from the point's query, key
    and value blocks. -/
def step (i : grid0.Coords) (x0 x1 x2 : Vec F S1x512x64 .f32) (s : Vec F S512x64 .f32 × Vec F S512x1 .f32) :
    Vec F S512x64 .f32 × Vec F S512x1 .f32 :=
  let s1 : Vec F S512x64 .f32 × Vec F S512x1 .f32 := if cond1 i then (k0_pay1 (F := F), k0_pay2 (F := F)) else s
  if cond2 i then
    (k0_pay3 (k0_pay7 (BitVec.ofNat 32 (i 1).val) (BitVec.ofNat 32 (i 2).val) x0 x1 x2 s1.1),
      k0_pay6 (BitVec.ofNat 32 (i 1).val) (BitVec.ofNat 32 (i 2).val) x0 x1 s1.2)
  else s1

/-- The three input blocks at point `t`, at their literal type. -/
abbrev xq (c : Dev nD) (t : Fin cfg0.N) : Vec F S1x512x64 .f32 := iblk m c 0 t
abbrev xk (c : Dev nD) (t : Fin cfg0.N) : Vec F S1x512x64 .f32 := iblk m c 1 t
abbrev xv (c : Dev nD) (t : Fin cfg0.N) : Vec F S1x512x64 .f32 := iblk m c 2 t

/-- The accumulators after point `n`. (Before the first point they are taken at zero: the first point is a key
    block 0, which resets them whatever they hold.) -/
def accAt (c : Dev nD) : (n : ℕ) → n < cfg0.N → Vec F S512x64 .f32 × Vec F S512x1 .f32
  | 0, hn => step (grid0.coords ⟨0, hn⟩) (xq m c ⟨0, hn⟩) (xk m c ⟨0, hn⟩) (xv m c ⟨0, hn⟩) (k0_pay1 (F := F), k0_pay2 (F := F))
  | n + 1, hn => step (grid0.coords ⟨n + 1, hn⟩) (xq m c ⟨n + 1, hn⟩) (xk m c ⟨n + 1, hn⟩) (xv m c ⟨n + 1, hn⟩)
      (accAt c n (Nat.lt_of_succ_lt hn))

/-- The accumulators before point `n`. -/
def prevAt (c : Dev nD) : (n : ℕ) → n < cfg0.N → Vec F S512x64 .f32 × Vec F S512x1 .f32
  | 0, _ => (k0_pay1 (F := F), k0_pay2 (F := F))
  | n + 1, hn => accAt m c n (Nat.lt_of_succ_lt hn)

theorem accAt_eq (c : Dev nD) (t : Fin cfg0.N) :
    accAt m c t.val t.isLt = step (grid0.coords t) (xq m c t) (xk m c t) (xv m c t) (prevAt m c t.val t.isLt) := by
  obtain ⟨n, hn⟩ := t
  cases n with
  | zero => rfl
  | succ n => rfl

theorem prevAt_pos (c : Dev nD) (n : ℕ) (hn : n < cfg0.N) (hz : n ≠ 0) :
    prevAt m c n hn = accAt m c (n - 1) (by omega) := by
  cases n with
  | zero => exact absurd rfl hz
  | succ n => rfl

/-- What the body stores into the output block at a key block 3. -/
def outAt (c : Dev nD) (t : Fin cfg0.N) : Vec F S1x512x64 .f32 :=
  k0_pay4 (accAt m c t.val t.isLt).1 (accAt m c t.val t.isLt).2

/-! ## The invariant and the proof data -/

/-- Before point `n`: at the region's entry whatever the launch hands over; afterwards the two accumulators at what
    the point before left, and the generator register at some state. -/
def PhiS (c : Dev nD) : (n : ℕ) → n ≤ cfg0.N → sProp 𝕄
  | 0, _ => Pipeline.ΦA spec0 c
  | n + 1, hn => iprop(iprop(owns (c : Thread nD τ) scM0 fullShare ((accAt m c n hn).1) ∗ owns (c : Thread nD τ) scM1 fullShare ((accAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0 fullShare ((accAt m c n hn).1) ∗ owns (c : Thread nD τ) scM1 fullShare ((accAt m c n hn).2)) ∗ (∃ r, prngReg c r)) := rfl

theorem PhiS_pos (c : Dev nD) (n : ℕ) (h : n ≤ cfg0.N) (hz : n ≠ 0) :
    PhiS m c n h = iprop(iprop(owns (c : Thread nD τ) scM0 fullShare ((accAt m c (n - 1) (by omega)).1) ∗ owns (c : Thread nD τ) scM1 fullShare ((accAt m c (n - 1) (by omega)).2)) ∗ (∃ r, prngReg c r)) := by
  cases n with
  | zero => exact absurd rfl hz
  | succ n => rfl

/-- The proof data of the one pipeline on core `c`: the arrays as the region finds them; after the body each input's
    buffer at its block and the output's at the quotient of the accumulators; the invariant `PhiS`; nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = outAt m c t := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

end Cert.KernelIdeal.Hand

end
-- ==== Proof.Hand.RunA.lean ====
/-
  The body at a key block 0 that is not the last key block: both accumulators are reset and the block's
  contribution is added; the output block is not touched.
-/
import proofs.«177288_j29240137351227_1_alg».proof.Proof.Hand.Acc

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores the body leaves in the buffers it writes (latest first), with the proof that on whole memrefs — the
    three inputs at their blocks, the output block and both accumulators at the given contents — it runs to a
    continuation that gets every buffer it does not write back as it was and every buffer it writes with those
    stores written. -/
noncomputable def kernelRunA (c : Dev nD) (i : grid0.Coords) (arg3 : Memref sig .tc .vmem S1x512x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S512x64 .f32) (harg7 : arg7.IsWhole) (arg8 : Memref sig .tc .vmem S512x1 .f32) (harg8 : arg8.IsWhole) (hc1 : cond1 i) (hc2 : cond2 i) (hc3 : ¬cond3 i)
    (x0 x1 x2 : Vec F S1x512x64 .f32) :
    Σ' (LS0 : List (View.Piece (Elt F) S512x64 .f32)), { LS1 : List (View.Piece (Elt F) S512x1 .f32) //
      ∀ (xi3 : Vec F S1x512x64 .f32) (xs0 : Vec F S512x64 .f32) (xs1 : Vec F S512x1 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3 ∗ owns (c : Thread nD τ) arg7 fullShare xs0 ∗ owns (c : Thread nD τ) arg8 fullShare xs1
            ∗ (iprop(owns (c : Thread nD τ) arg3 fullShare x0 ∗ owns (c : Thread nD τ) arg4 fullShare x1 ∗ owns (c : Thread nD τ) arg5 fullShare x2
                ∗ owns (c : Thread nD τ) arg6 fullShare xi3
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc0__attn_kernel i arg3 harg3 arg4 harg4 arg5 harg5 arg6 harg6 arg7 harg7 arg8 harg8) K } := by
  refine ⟨?_, ?_, fun xi3 xs0 xs1 E K => ?run⟩
  case run =>
    simp only [cc0__attn_kernel_eq_skeleton, k0_part1_eq_skeleton]; unfold cc0__attn_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg3.eq_unread hf0; obtain rfl := harg4.eq_unread hf1; obtain rfl := harg5.eq_unread hf2
    obtain rfl := harg6.eq_unread hf3; obtain rfl := harg7.eq_unread hfs0; obtain rfl := harg8.eq_unread hfs1
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]
    · iexists _; iexact HS0
    iexists _; iexact HS1

end Cert.KernelIdeal.Hand

end
-- ==== Proof.Hand.RunB.lean ====
/-
  The body at a key block after the first, not after the query block and not the last: the block's contribution is
  added to both accumulators; the output block is not touched.
-/
import proofs.«177288_j29240137351227_1_alg».proof.Proof.Hand.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores the body leaves in the buffers it writes (latest first), with the proof that on whole memrefs — the
    three inputs at their blocks, the output block and both accumulators at the given contents — it runs to a
    continuation that gets every buffer it does not write back as it was and every buffer it writes with those
    stores written. -/
noncomputable def kernelRunB (c : Dev nD) (i : grid0.Coords) (arg3 : Memref sig .tc .vmem S1x512x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S512x64 .f32) (harg7 : arg7.IsWhole) (arg8 : Memref sig .tc .vmem S512x1 .f32) (harg8 : arg8.IsWhole) (hc1 : ¬cond1 i) (hc2 : cond2 i) (hc3 : ¬cond3 i)
    (x0 x1 x2 : Vec F S1x512x64 .f32) (xs0 : Vec F S512x64 .f32) (xs1 : Vec F S512x1 .f32) :
    Σ' (LS0 : List (View.Piece (Elt F) S512x64 .f32)), { LS1 : List (View.Piece (Elt F) S512x1 .f32) //
      ∀ (xi3 : Vec F S1x512x64 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3 ∗ owns (c : Thread nD τ) arg7 fullShare xs0 ∗ owns (c : Thread nD τ) arg8 fullShare xs1
            ∗ (iprop(owns (c : Thread nD τ) arg3 fullShare x0 ∗ owns (c : Thread nD τ) arg4 fullShare x1 ∗ owns (c : Thread nD τ) arg5 fullShare x2
                ∗ owns (c : Thread nD τ) arg6 fullShare xi3
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc0__attn_kernel i arg3 harg3 arg4 harg4 arg5 harg5 arg6 harg6 arg7 harg7 arg8 harg8) K } := by
  refine ⟨?_, ?_, fun xi3 E K => ?run⟩
  case run =>
    simp only [cc0__attn_kernel_eq_skeleton, k0_part1_eq_skeleton]; unfold cc0__attn_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg3.eq_unread hf0; obtain rfl := harg4.eq_unread hf1; obtain rfl := harg5.eq_unread hf2
    obtain rfl := harg6.eq_unread hf3; obtain rfl := harg7.eq_unread hfs0; obtain rfl := harg8.eq_unread hfs1
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]
    · iexists _; iexact HS0
    iexists _; iexact HS1

end Cert.KernelIdeal.Hand

end
-- ==== Proof.Hand.RunC.lean ====
/-
  The body at the last key block when it is not after the query block (query block 3): the block's contribution
  is added to both accumulators, and their quotient is stored into the output block.
-/
import proofs.«177288_j29240137351227_1_alg».proof.Proof.Hand.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores the body leaves in the buffers it writes (latest first), with the proof that on whole memrefs — the
    three inputs at their blocks, the output block and both accumulators at the given contents — it runs to a
    continuation that gets every buffer it does not write back as it was and every buffer it writes with those
    stores written. -/
noncomputable def kernelRunC (c : Dev nD) (i : grid0.Coords) (arg3 : Memref sig .tc .vmem S1x512x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S512x64 .f32) (harg7 : arg7.IsWhole) (arg8 : Memref sig .tc .vmem S512x1 .f32) (harg8 : arg8.IsWhole) (hc1 : ¬cond1 i) (hc2 : cond2 i) (hc3 : cond3 i)
    (x0 x1 x2 : Vec F S1x512x64 .f32) (xs0 : Vec F S512x64 .f32) (xs1 : Vec F S512x1 .f32) :
    Σ' (L3 : List (View.Piece (Elt F) S1x512x64 .f32)) (LS0 : List (View.Piece (Elt F) S512x64 .f32)), { LS1 : List (View.Piece (Elt F) S512x1 .f32) //
      ∀ (xi3 : Vec F S1x512x64 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3 ∗ owns (c : Thread nD τ) arg7 fullShare xs0 ∗ owns (c : Thread nD τ) arg8 fullShare xs1
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc0__attn_kernel i arg3 harg3 arg4 harg4 arg5 harg5 arg6 harg6 arg7 harg7 arg8 harg8) K } := by
  refine ⟨?_, ?_, ?_, fun xi3 E K => ?run⟩
  case run =>
    simp only [cc0__attn_kernel_eq_skeleton, k0_part1_eq_skeleton]; unfold cc0__attn_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg3.eq_unread hf0; obtain rfl := harg4.eq_unread hf1; obtain rfl := harg5.eq_unread hf2
    obtain rfl := harg6.eq_unread hf3; obtain rfl := harg7.eq_unread hfs0; obtain rfl := harg8.eq_unread hfs1
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; iexact H3
    isplitl [HS0]
    · iexists _; iexact HS0
    iexists _; iexact HS1

end Cert.KernelIdeal.Hand

end
-- ==== Proof.Hand.RunD.lean ====
/-
  The body at a key block after the query block that is not the last: nothing is stored anywhere.
-/
import proofs.«177288_j29240137351227_1_alg».proof.Proof.Hand.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs — the three inputs at their blocks, the output block and both accumulators at the given contents —
    the body runs to a continuation that gets every buffer back as it was. -/
theorem kernelRunD (c : Dev nD) (i : grid0.Coords) (arg3 : Memref sig .tc .vmem S1x512x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S512x64 .f32) (harg7 : arg7.IsWhole) (arg8 : Memref sig .tc .vmem S512x1 .f32) (harg8 : arg8.IsWhole) (hc1 : ¬cond1 i) (hc2 : ¬cond2 i) (hc3 : ¬cond3 i)
    (x0 x1 x2 : Vec F S1x512x64 .f32) (xs0 : Vec F S512x64 .f32) (xs1 : Vec F S512x1 .f32) :
    (∀ (xi3 : Vec F S1x512x64 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3 ∗ owns (c : Thread nD τ) arg7 fullShare xs0 ∗ owns (c : Thread nD τ) arg8 fullShare xs1
            ∗ (iprop(owns (c : Thread nD τ) arg3 fullShare x0 ∗ owns (c : Thread nD τ) arg4 fullShare x1 ∗ owns (c : Thread nD τ) arg5 fullShare x2
                ∗ owns (c : Thread nD τ) arg6 fullShare xi3
                ∗ owns (c : Thread nD τ) arg7 fullShare xs0
                ∗ owns (c : Thread nD τ) arg8 fullShare xs1) -∗ K ⟨⟩))
          ⊢ wp frame (wpE (defs₀ (F := F)) Variants.none c none) E (cc0__attn_kernel i arg3 harg3 arg4 harg4 arg5 harg5 arg6 harg6 arg7 harg7 arg8 harg8) K) := by
  intro xi3 E K
  ·
    simp only [cc0__attn_kernel_eq_skeleton, k0_part1_eq_skeleton]; unfold cc0__attn_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg3.eq_unread hf0; obtain rfl := harg4.eq_unread hf1; obtain rfl := harg5.eq_unread hf2
    obtain rfl := harg6.eq_unread hf3; obtain rfl := harg7.eq_unread hfs0; obtain rfl := harg8.eq_unread hfs1
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]
    · iexists _; isplitr; · ipureintro; exact harg7.read_unread _
      iexact HS0
    iexists _; isplitr; · ipureintro; exact harg8.read_unread _
    iexact HS1

end Cert.KernelIdeal.Hand

end
-- ==== Proof.Hand.RunE.lean ====
/-
  The body at the last key block when it is after the query block: the accumulators are left as they are and
  their quotient is stored into the output block.
-/
import proofs.«177288_j29240137351227_1_alg».proof.Proof.Hand.RunD

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores the body leaves in the buffers it writes (latest first), with the proof that on whole memrefs — the
    three inputs at their blocks, the output block and both accumulators at the given contents — it runs to a
    continuation that gets every buffer it does not write back as it was and every buffer it writes with those
    stores written. -/
noncomputable def kernelRunE (c : Dev nD) (i : grid0.Coords) (arg3 : Memref sig .tc .vmem S1x512x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S512x64 .f32) (harg7 : arg7.IsWhole) (arg8 : Memref sig .tc .vmem S512x1 .f32) (harg8 : arg8.IsWhole) (hc1 : ¬cond1 i) (hc2 : ¬cond2 i) (hc3 : cond3 i)
    (x0 x1 x2 : Vec F S1x512x64 .f32) (xs0 : Vec F S512x64 .f32) (xs1 : Vec F S512x1 .f32) :
    { L3 : List (View.Piece (Elt F) S1x512x64 .f32) //
      ∀ (xi3 : Vec F S1x512x64 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3 ∗ owns (c : Thread nD τ) arg7 fullShare xs0 ∗ owns (c : Thread nD τ) arg8 fullShare xs1
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ owns (c : Thread nD τ) arg7 fullShare xs0
                ∗ owns (c : Thread nD τ) arg8 fullShare xs1) -∗ K ⟨⟩))
          ⊢ wp frame (wpE (defs₀ (F := F)) Variants.none c none) E (cc0__attn_kernel i arg3 harg3 arg4 harg4 arg5 harg5 arg6 harg6 arg7 harg7 arg8 harg8) K } := by
  refine ⟨?_, fun xi3 E K => ?run⟩
  case run =>
    simp only [cc0__attn_kernel_eq_skeleton, k0_part1_eq_skeleton]; unfold cc0__attn_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg3.eq_unread hf0; obtain rfl := harg4.eq_unread hf1; obtain rfl := harg5.eq_unread hf2
    obtain rfl := harg6.eq_unread hf3; obtain rfl := harg7.eq_unread hfs0; obtain rfl := harg8.eq_unread hfs1
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; iexact H3
    isplitl [HS0]
    · iexists _; isplitr; · ipureintro; exact harg7.read_unread _
      iexact HS0
    iexists _; isplitr; · ipureintro; exact harg8.read_unread _
    iexact HS1

end Cert.KernelIdeal.Hand

end
-- ==== Proof.Hand.Pieces.lean ====
/-
  What the body leaves in each buffer it writes, case by case, as the state transition.

  Every store of the body covers its whole buffer, so a buffer reads back as the payload of the last store into it;
  a load after a store reads that store's payload, and a load of an untouched buffer reads what the body was handed.
  Unfolding the payloads' arguments that way, the two accumulators end at `step` of what they held, and the output
  block (where it is stored) at the quotient payload of the accumulators' final contents.
-/
import proofs.«177288_j29240137351227_1_alg».proof.Proof.Hand.RunE
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of the whole-buffer rectangles, however spelt. -/
theorem hz2 : (![0, 0] : Fin 2 → ℕ) = fun _ => 0 := by funext a; fin_cases a <;> rfl
theorem hz3 : (![0, 0, 0] : Fin 3 → ℕ) = fun _ => 0 := by funext a; fin_cases a <;> rfl

/-- A store through the whole-buffer rectangle (zero offsets, the buffer's own extents), the latest of a list of
    stores, reads back as its payload, whatever was stored before it and whatever the buffer held. -/
theorem read_writes_unit_zero {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  subst h; funext y
  have e := View.read_writes_cons_emb v f (Rect.whole S) w L y
  rw [Rect.emb_whole_apply] at e
  exact e

section
variable (c : Dev nD) (i : grid0.Coords) (arg3 : Memref sig .tc .vmem S1x512x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S512x64 .f32) (harg7 : arg7.IsWhole) (arg8 : Memref sig .tc .vmem S512x1 .f32) (harg8 : arg8.IsWhole)
  (x0 x1 x2 : Vec F S1x512x64 .f32) (xs0 : Vec F S512x64 .f32) (xs1 : Vec F S512x1 .f32)
  (v0 : View sig .tc .vmem S512x64 .f32) (f0 : v0.ty.Contents (Elt F))
  (v1 : View sig .tc .vmem S512x1 .f32) (f1 : v1.ty.Contents (Elt F))
  (v3 : View sig .tc .vmem S1x512x64 .f32) (f3 : v3.ty.Contents (Elt F))

/-- Key block 0: reset, then this block added. -/
theorem soutA0 (hc1 : cond1 i) (hc2 : cond2 i) (hc3 : ¬cond3 i) :
    v0.read (Elt F) (v0.writes (Elt F) f0 (kernelRunA c i arg3 harg3 arg4 harg4 arg5 harg5 arg6 harg6 arg7 harg7 arg8 harg8 hc1 hc2 hc3 x0 x1 x2).1) = (step i x0 x1 x2 (xs0, xs1)).1 := by
  unfold kernelRunA; dsimp only; sl_unfold_words
  rw [read_writes_unit_zero (S := S512x64) _ _ hz2]
  simp only [View.readAt_eq_ld, harg3.read_unread, harg4.read_unread, harg5.read_unread,
    View.ld_unit_zero (S := S1x512x64) hz3, View.readCov_unit_zero (S := S512x64) _ hz2]
  unfold step; rw [if_pos hc1, if_pos hc2]

theorem soutA1 (hc1 : cond1 i) (hc2 : cond2 i) (hc3 : ¬cond3 i) :
    v1.read (Elt F) (v1.writes (Elt F) f1 (kernelRunA c i arg3 harg3 arg4 harg4 arg5 harg5 arg6 harg6 arg7 harg7 arg8 harg8 hc1 hc2 hc3 x0 x1 x2).2.1) = (step i x0 x1 x2 (xs0, xs1)).2 := by
  unfold kernelRunA; dsimp only; sl_unfold_words
  rw [read_writes_unit_zero (S := S512x1) _ _ hz2]
  simp only [View.readAt_eq_ld, harg3.read_unread, harg4.read_unread,
    View.ld_unit_zero (S := S1x512x64) hz3, View.readCov_unit_zero (S := S512x1) _ hz2]
  unfold step; rw [if_pos hc1, if_pos hc2]

/-- A later key block not after the query block: this block added to what was there. -/
theorem soutB0 (hc1 : ¬cond1 i) (hc2 : cond2 i) (hc3 : ¬cond3 i) :
    v0.read (Elt F) (v0.writes (Elt F) f0 (kernelRunB c i arg3 harg3 arg4 harg4 arg5 harg5 arg6 harg6 arg7 harg7 arg8 harg8 hc1 hc2 hc3 x0 x1 x2 xs0 xs1).1) = (step i x0 x1 x2 (xs0, xs1)).1 := by
  unfold kernelRunB; dsimp only; sl_unfold_words
  rw [read_writes_unit_zero (S := S512x64) _ _ hz2]
  simp only [View.readAt_eq_ld, harg3.read_unread, harg4.read_unread, harg5.read_unread, harg7.read_unread,
    View.ld_unit_zero (S := S1x512x64) hz3, View.ld_unit_zero (S := S512x64) hz2]
  unfold step; rw [if_neg hc1, if_pos hc2]

theorem soutB1 (hc1 : ¬cond1 i) (hc2 : cond2 i) (hc3 : ¬cond3 i) :
    v1.read (Elt F) (v1.writes (Elt F) f1 (kernelRunB c i arg3 harg3 arg4 harg4 arg5 harg5 arg6 harg6 arg7 harg7 arg8 harg8 hc1 hc2 hc3 x0 x1 x2 xs0 xs1).2.1) = (step i x0 x1 x2 (xs0, xs1)).2 := by
  unfold kernelRunB; dsimp only; sl_unfold_words
  rw [read_writes_unit_zero (S := S512x1) _ _ hz2]
  simp only [View.readAt_eq_ld, harg3.read_unread, harg4.read_unread, harg8.read_unread,
    View.ld_unit_zero (S := S1x512x64) hz3, View.ld_unit_zero (S := S512x1) hz2]
  unfold step; rw [if_neg hc1, if_pos hc2]

/-- The last key block, not after the query block: this block added, and the quotient stored. -/
theorem soutC0 (hc1 : ¬cond1 i) (hc2 : cond2 i) (hc3 : cond3 i) :
    v0.read (Elt F) (v0.writes (Elt F) f0 (kernelRunC c i arg3 harg3 arg4 harg4 arg5 harg5 arg6 harg6 arg7 harg7 arg8 harg8 hc1 hc2 hc3 x0 x1 x2 xs0 xs1).2.1) = (step i x0 x1 x2 (xs0, xs1)).1 := by
  unfold kernelRunC; dsimp only; sl_unfold_words
  rw [read_writes_unit_zero (S := S512x64) _ _ hz2]
  simp only [View.readAt_eq_ld, harg3.read_unread, harg4.read_unread, harg5.read_unread, harg7.read_unread,
    View.ld_unit_zero (S := S1x512x64) hz3, View.ld_unit_zero (S := S512x64) hz2]
  unfold step; rw [if_neg hc1, if_pos hc2]

theorem soutC1 (hc1 : ¬cond1 i) (hc2 : cond2 i) (hc3 : cond3 i) :
    v1.read (Elt F) (v1.writes (Elt F) f1 (kernelRunC c i arg3 harg3 arg4 harg4 arg5 harg5 arg6 harg6 arg7 harg7 arg8 harg8 hc1 hc2 hc3 x0 x1 x2 xs0 xs1).2.2.1) = (step i x0 x1 x2 (xs0, xs1)).2 := by
  unfold kernelRunC; dsimp only; sl_unfold_words
  rw [read_writes_unit_zero (S := S512x1) _ _ hz2]
  simp only [View.readAt_eq_ld, harg3.read_unread, harg4.read_unread, harg8.read_unread,
    View.ld_unit_zero (S := S1x512x64) hz3, View.ld_unit_zero (S := S512x1) hz2]
  unfold step; rw [if_neg hc1, if_pos hc2]

theorem outC3 (hc1 : ¬cond1 i) (hc2 : cond2 i) (hc3 : cond3 i) :
    v3.read (Elt F) (v3.writes (Elt F) f3 (kernelRunC c i arg3 harg3 arg4 harg4 arg5 harg5 arg6 harg6 arg7 harg7 arg8 harg8 hc1 hc2 hc3 x0 x1 x2 xs0 xs1).1)
      = k0_pay4 (step i x0 x1 x2 (xs0, xs1)).1 (step i x0 x1 x2 (xs0, xs1)).2 := by
  unfold kernelRunC; dsimp only; sl_unfold_words
  rw [read_writes_unit_zero (S := S1x512x64) _ _ hz3]
  simp only [View.readAt_eq_ld, harg3.read_unread, harg4.read_unread, harg5.read_unread, harg7.read_unread, harg8.read_unread,
    View.ld_unit_zero (S := S1x512x64) hz3, View.ld_unit_zero (S := S512x64) hz2, View.ld_unit_zero (S := S512x1) hz2,
    View.readCov_unit_zero (S := S512x64) _ hz2, View.readCov_unit_zero (S := S512x1) _ hz2]
  unfold step; rw [if_neg hc1, if_pos hc2]

/-- The last key block, after the query block: the accumulators kept, their quotient stored. -/
theorem outE3 (hc1 : ¬cond1 i) (hc2 : ¬cond2 i) (hc3 : cond3 i) :
    v3.read (Elt F) (v3.writes (Elt F) f3 (kernelRunE c i arg3 harg3 arg4 harg4 arg5 harg5 arg6 harg6 arg7 harg7 arg8 harg8 hc1 hc2 hc3 x0 x1 x2 xs0 xs1).1)
      = k0_pay4 (step i x0 x1 x2 (xs0, xs1)).1 (step i x0 x1 x2 (xs0, xs1)).2 := by
  unfold kernelRunE; dsimp only; sl_unfold_words
  rw [read_writes_unit_zero (S := S1x512x64) _ _ hz3]
  simp only [View.readAt_eq_ld, harg7.read_unread, harg8.read_unread,
    View.ld_unit_zero (S := S512x64) hz2, View.ld_unit_zero (S := S512x1) hz2]
  unfold step; rw [if_neg hc1, if_neg hc2]

/-- Where nothing is added (a key block after the query block, not key block 0) the state is kept. -/
theorem step_keep (hc1 : ¬cond1 i) (hc2 : ¬cond2 i) : step i x0 x1 x2 (xs0, xs1) = (xs0, xs1) := by
  unfold step; rw [if_neg hc1, if_neg hc2]

/-- At key block 0 the state before does not matter. -/
theorem step_reset (hc1 : cond1 i) (s s' : Vec F S512x64 .f32 × Vec F S512x1 .f32) : step i x0 x1 x2 s = step i x0 x1 x2 s' := by
  unfold step; rw [if_pos hc1, if_pos hc1]

end

end Cert.KernelIdeal.Hand

end
-- ==== Proof.Hand.Body.lean ====
/-
  The body obligation, the launch, and the frame.

  At every grid point the body, called on the point's staging buffers and the two accumulators, runs and leaves each
  buffer as the proof data says: which of the five control cases the point is in is read off its coordinates, that
  case's run applies, and what it leaves in the accumulators is the state transition of what the point before left
  (at the first point: of anything, since key block 0 resets).  The launch then gives the run of the whole program,
  whose argument arrays end as they were.
-/
import proofs.«177288_j29240137351227_1_alg».proof.Proof.Hand.Pieces

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

/-- The output block at a key block 3 is live: the body's store is what the window leaves. -/
theorem leaves3_live (c : Dev nD) (t : Fin cfg0.N) (h3 : cond3 (grid0.coords t)) :
    (dats m 0 c).leavesExact 3 t = owns (c : Thread nD τ) (ms3 t) fullShare ((dats m 0 c).after 3 t) := by
  unfold Dat.leavesExact; rw [liveAt3 t h3]

set_option maxHeartbeats 4800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [liveAt0 t], after0]
  rw [show (dats m 0 c).leavesExact 1 t = owns (c : Thread nD τ) (ms1 t) fullShare ((dats m 0 c).after 1 t) from by
    unfold Dat.leavesExact; rw [liveAt1 t], after1]
  rw [show (dats m 0 c).leavesExact 2 t = owns (c : Thread nD τ) (ms2 t) fullShare ((dats m 0 c).after 2 t) from by
    unfold Dat.leavesExact; rw [liveAt2 t], after2]
  rw [accAt_eq m c t]
  by_cases h1 : cond1 (grid0.coords t)
  · have h2 : cond2 (grid0.coords t) := (hcond2 t).mpr (by have := (hcond1 t).mp h1; omega)
    have h3 : ¬cond3 (grid0.coords t) := fun h => by have := (hcond1 t).mp h1; have := (hcond3 t).mp h; omega
    rw [Dat.leavesExact_idle (dats m 0 c) 3 t (idleAt3 t h3) (noFlush3 t h3)]
    by_cases hz : t.val = 0
    · rw [PhiS_castSucc m c t, PhiS_zero m c _ _ hz, PhiA0_eq]
      iintro ⟨⟨⟨⟨%ds0, HS0⟩, ⟨%ds1, HS1⟩⟩, Hg⟩, Ho, ⟨%d0, H0⟩, ⟨%d1, H1⟩, ⟨%d2, H2⟩, ⟨%d3, H3⟩⟩
      iapply ((kernelRunA c (grid0.coords t) (ms0 t) (hs0 t) (ms1 t) (hs1 t) (ms2 t) (hs2 t) (ms3 t) (hs3 t) scM0 (Memref.isWhole_whole _) scM1 (Memref.isWhole_whole _) h1 h2 h3 (xq m c t) (xk m c t) (xv m c t)).2.2 _ ds0 ds1 Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hg]
      · isplitl [HS0 HS1]
        · isplitl [HS0]
          · unfold owns; iexists _; isplitr
            swap; · iexact HS0
            ipureintro; exact soutA0 c (grid0.coords t) (ms0 t) (hs0 t) (ms1 t) (hs1 t) (ms2 t) (hs2 t) (ms3 t) (hs3 t) scM0 (Memref.isWhole_whole _) scM1 (Memref.isWhole_whole _) (xq m c t) (xk m c t) (xv m c t) (prevAt m c t.val t.isLt).1 (prevAt m c t.val t.isLt).2 _ _ h1 h2 h3
          unfold owns; iexists _; isplitr
          swap; · iexact HS1
          ipureintro; exact soutA1 c (grid0.coords t) (ms0 t) (hs0 t) (ms1 t) (hs1 t) (ms2 t) (hs2 t) (ms3 t) (hs3 t) scM0 (Memref.isWhole_whole _) scM1 (Memref.isWhole_whole _) (xq m c t) (xk m c t) (xv m c t) (prevAt m c t.val t.isLt).1 (prevAt m c t.val t.isLt).2 _ _ h1 h2 h3
        iexact Hg
      isplitl [Ho]; · iexact Ho
      isplitl [H0]; · iexact H0
      isplitl [H1]; · iexact H1
      isplitl [H2]; · iexact H2
      iexists _; iexact H3
    · rw [PhiS_castSucc m c t, PhiS_pos m c _ _ hz]
      iintro ⟨⟨⟨HS0, HS1⟩, Hg⟩, Ho, ⟨%d0, H0⟩, ⟨%d1, H1⟩, ⟨%d2, H2⟩, ⟨%d3, H3⟩⟩
      iapply ((kernelRunA c (grid0.coords t) (ms0 t) (hs0 t) (ms1 t) (hs1 t) (ms2 t) (hs2 t) (ms3 t) (hs3 t) scM0 (Memref.isWhole_whole _) scM1 (Memref.isWhole_whole _) h1 h2 h3 (xq m c t) (xk m c t) (xv m c t)).2.2 _ _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hg]
      · isplitl [HS0 HS1]
        · isplitl [HS0]
          · unfold owns; iexists _; isplitr
            swap; · iexact HS0
            ipureintro; exact soutA0 c (grid0.coords t) (ms0 t) (hs0 t) (ms1 t) (hs1 t) (ms2 t) (hs2 t) (ms3 t) (hs3 t) scM0 (Memref.isWhole_whole _) scM1 (Memref.isWhole_whole _) (xq m c t) (xk m c t) (xv m c t) (prevAt m c t.val t.isLt).1 (prevAt m c t.val t.isLt).2 _ _ h1 h2 h3
          unfold owns; iexists _; isplitr
          swap; · iexact HS1
          ipureintro; exact soutA1 c (grid0.coords t) (ms0 t) (hs0 t) (ms1 t) (hs1 t) (ms2 t) (hs2 t) (ms3 t) (hs3 t) scM0 (Memref.isWhole_whole _) scM1 (Memref.isWhole_whole _) (xq m c t) (xk m c t) (xv m c t) (prevAt m c t.val t.isLt).1 (prevAt m c t.val t.isLt).2 _ _ h1 h2 h3
        iexact Hg
      isplitl [Ho]; · iexact Ho
      isplitl [H0]; · iexact H0
      isplitl [H1]; · iexact H1
      isplitl [H2]; · iexact H2
      iexists _; iexact H3
  · have hz : t.val ≠ 0 := fun h => h1 ((hcond1 t).mpr (by rw [h]))
    rw [PhiS_castSucc m c t, PhiS_pos m c _ _ hz, prevAt_pos m c t.val t.isLt hz]
    by_cases h2 : cond2 (grid0.coords t)
    · by_cases h3 : cond3 (grid0.coords t)
      · rw [leaves3_live m c t h3, after3]
        unfold outAt; rw [accAt_eq m c t, prevAt_pos m c t.val t.isLt hz]
        iintro ⟨⟨⟨HS0, HS1⟩, Hg⟩, Ho, ⟨%d0, H0⟩, ⟨%d1, H1⟩, ⟨%d2, H2⟩, ⟨%d3, H3⟩⟩
        iapply ((kernelRunC c (grid0.coords t) (ms0 t) (hs0 t) (ms1 t) (hs1 t) (ms2 t) (hs2 t) (ms3 t) (hs3 t) scM0 (Memref.isWhole_whole _) scM1 (Memref.isWhole_whole _) h1 h2 h3 (xq m c t) (xk m c t) (xv m c t) _ _).2.2.2 _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, ⟨%e3, H3⟩, ⟨%es0, HS0⟩, ⟨%es1, HS1⟩⟩
        isplitl [HS0 HS1 Hg]
        · isplitl [HS0 HS1]
          · isplitl [HS0]
            · unfold owns; iexists _; isplitr
              swap; · iexact HS0
              ipureintro; exact soutC0 c (grid0.coords t) (ms0 t) (hs0 t) (ms1 t) (hs1 t) (ms2 t) (hs2 t) (ms3 t) (hs3 t) scM0 (Memref.isWhole_whole _) scM1 (Memref.isWhole_whole _) (xq m c t) (xk m c t) (xv m c t) _ _ _ _ h1 h2 h3
            unfold owns; iexists _; isplitr
            swap; · iexact HS1
            ipureintro; exact soutC1 c (grid0.coords t) (ms0 t) (hs0 t) (ms1 t) (hs1 t) (ms2 t) (hs2 t) (ms3 t) (hs3 t) scM0 (Memref.isWhole_whole _) scM1 (Memref.isWhole_whole _) (xq m c t) (xk m c t) (xv m c t) _ _ _ _ h1 h2 h3
          iexact Hg
        isplitl [Ho]; · iexact Ho
        isplitl [H0]; · iexact H0
        isplitl [H1]; · iexact H1
        isplitl [H2]; · iexact H2
        unfold owns; iexists _; isplitr
        swap; · iexact H3
        ipureintro; exact outC3 c (grid0.coords t) (ms0 t) (hs0 t) (ms1 t) (hs1 t) (ms2 t) (hs2 t) (ms3 t) (hs3 t) scM0 (Memref.isWhole_whole _) scM1 (Memref.isWhole_whole _) (xq m c t) (xk m c t) (xv m c t) _ _ _ _ h1 h2 h3
      · rw [Dat.leavesExact_idle (dats m 0 c) 3 t (idleAt3 t h3) (noFlush3 t h3)]
        iintro ⟨⟨⟨HS0, HS1⟩, Hg⟩, Ho, ⟨%d0, H0⟩, ⟨%d1, H1⟩, ⟨%d2, H2⟩, ⟨%d3, H3⟩⟩
        iapply ((kernelRunB c (grid0.coords t) (ms0 t) (hs0 t) (ms1 t) (hs1 t) (ms2 t) (hs2 t) (ms3 t) (hs3 t) scM0 (Memref.isWhole_whole _) scM1 (Memref.isWhole_whole _) h1 h2 h3 (xq m c t) (xk m c t) (xv m c t) _ _).2.2 _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, ⟨%es1, HS1⟩⟩
        isplitl [HS0 HS1 Hg]
        · isplitl [HS0 HS1]
          · isplitl [HS0]
            · unfold owns; iexists _; isplitr
              swap; · iexact HS0
              ipureintro; exact soutB0 c (grid0.coords t) (ms0 t) (hs0 t) (ms1 t) (hs1 t) (ms2 t) (hs2 t) (ms3 t) (hs3 t) scM0 (Memref.isWhole_whole _) scM1 (Memref.isWhole_whole _) (xq m c t) (xk m c t) (xv m c t) _ _ _ _ h1 h2 h3
            unfold owns; iexists _; isplitr
            swap; · iexact HS1
            ipureintro; exact soutB1 c (grid0.coords t) (ms0 t) (hs0 t) (ms1 t) (hs1 t) (ms2 t) (hs2 t) (ms3 t) (hs3 t) scM0 (Memref.isWhole_whole _) scM1 (Memref.isWhole_whole _) (xq m c t) (xk m c t) (xv m c t) _ _ _ _ h1 h2 h3
          iexact Hg
        isplitl [Ho]; · iexact Ho
        isplitl [H0]; · iexact H0
        isplitl [H1]; · iexact H1
        isplitl [H2]; · iexact H2
        iexists _; iexact H3
    · rw [step_keep (grid0.coords t) (xq m c t) (xk m c t) (xv m c t) _ _ h1 h2]
      by_cases h3 : cond3 (grid0.coords t)
      · rw [leaves3_live m c t h3, after3]
        unfold outAt; rw [accAt_eq m c t, prevAt_pos m c t.val t.isLt hz, step_keep (grid0.coords t) (xq m c t) (xk m c t) (xv m c t) _ _ h1 h2]
        iintro ⟨⟨⟨HS0, HS1⟩, Hg⟩, Ho, ⟨%d0, H0⟩, ⟨%d1, H1⟩, ⟨%d2, H2⟩, ⟨%d3, H3⟩⟩
        iapply ((kernelRunE c (grid0.coords t) (ms0 t) (hs0 t) (ms1 t) (hs1 t) (ms2 t) (hs2 t) (ms3 t) (hs3 t) scM0 (Memref.isWhole_whole _) scM1 (Memref.isWhole_whole _) h1 h2 h3 (xq m c t) (xk m c t) (xv m c t) _ _).2 _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, ⟨%e3, H3⟩, HS0, HS1⟩
        isplitl [HS0 HS1 Hg]
        · isplitl [HS0 HS1]
          · isplitl [HS0]; · iexact HS0
            iexact HS1
          iexact Hg
        isplitl [Ho]; · iexact Ho
        isplitl [H0]; · iexact H0
        isplitl [H1]; · iexact H1
        isplitl [H2]; · iexact H2
        unfold owns; iexists _; isplitr
        swap; · iexact H3
        ipureintro
        refine (outE3 c (grid0.coords t) (ms0 t) (hs0 t) (ms1 t) (hs1 t) (ms2 t) (hs2 t) (ms3 t) (hs3 t) scM0 (Memref.isWhole_whole _) scM1 (Memref.isWhole_whole _) (xq m c t) (xk m c t) (xv m c t) _ _ _ _ h1 h2 h3).trans ?_
        rw [step_keep (grid0.coords t) (xq m c t) (xk m c t) (xv m c t) _ _ h1 h2]
      · rw [Dat.leavesExact_idle (dats m 0 c) 3 t (idleAt3 t h3) (noFlush3 t h3)]
        iintro ⟨⟨⟨HS0, HS1⟩, Hg⟩, Ho, ⟨%d0, H0⟩, ⟨%d1, H1⟩, ⟨%d2, H2⟩, ⟨%d3, H3⟩⟩
        iapply ((kernelRunD c (grid0.coords t) (ms0 t) (hs0 t) (ms1 t) (hs1 t) (ms2 t) (hs2 t) (ms3 t) (hs3 t) scM0 (Memref.isWhole_whole _) scM1 (Memref.isWhole_whole _) h1 h2 h3 (xq m c t) (xk m c t) (xv m c t) _ _) _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, HS0, HS1⟩
        isplitl [HS0 HS1 Hg]
        · isplitl [HS0 HS1]
          · isplitl [HS0]; · iexact HS0
            iexact HS1
          iexact Hg
        isplitl [Ho]; · iexact Ho
        isplitl [H0]; · iexact H0
        isplitl [H1]; · iexact H1
        isplitl [H2]; · iexact H2
        iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the launch's back: the accumulators' contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

theorem hout (c : Dev nD) : (dats m 0 c).Φ (Fin.last cfg0.N) ⊢ Pipeline.ΦA spec0 c :=
  Phi_out m c _ (by rw [Fin.val_last]; have : cfg0.N = 256 := N_0; omega)

/-! ## The run and the frame -/

set_option backward.isDefEq.respectTransparency.types false in
/-- Every weakly fair execution of the program terminates, every array of the pipeline ending at what the proof data
    computes and every other buffer at what the host operations after the region make of the region's exit. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The program runs, faults nowhere, and leaves its three argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Hand

end
-- ==== Proof.Spec.lean ====
/-
  Squared-score causal linear attention, as ONE function of the three argument arrays.

  For a head `h`, a query row `i` and a key row `j` the score is the inner product of the two rows over the 64
  features, scaled by 1/8; its weight `w` is the square of that when `j ≤ i` and `0` otherwise.  The result at
  `(h, i, d)` is `(∑ j, w i j · v j d) / ((∑ j, w i j) + ε)`.  The sums over the 2048 key rows are also cut into four
  blocks of 512 (`blkZ`, `blkO`) with the partial sums over the first `n` key blocks (`Zp`, `Op`).
-/
import Idealize.ShloMosaic.PureOps.Ideal
import Idealize.ShloMosaic.PureOps.Ideal.Laws
import Idealize.ShloMosaic.Lib.ValueIdx

noncomputable section

namespace Attn

open Idealize.ShloMosaic Idealize.ShloMosaic.ValueIdx
open scoped BigOperators

/-- The argument arrays' shape: one batch, 16 heads, 2048 rows, 64 features. -/
abbrev A4 : Shape := ⟨4, ![1, 16, 2048, 64]⟩

/-- The scale 1/8 and the ε of the denominator, as the words both programs print. -/
abbrev cS : EReal := Ideal.ofBits .f32 0x3E000000#32
abbrev eps : EReal := Ideal.ofBits .f32 0x358637BD#32

/-- The inner product of query row `i` and key row `j` of head `h`. -/
def dot (q k : A4.Idx → EReal) (h : Fin 16) (i j : Fin 2048) : EReal :=
  ∑ e : Fin 64, q (ix4 (0 : Fin 1) h i e) * k (ix4 (0 : Fin 1) h j e)

/-- The weight of key row `j` for query row `i`: the squared scaled score under the causal mask. -/
def w (q k : A4.Idx → EReal) (h : Fin 16) (i j : Fin 2048) : EReal :=
  if j.val ≤ i.val then (dot q k h i j * cS) * (dot q k h i j * cS) else 0

/-- The normaliser of query row `i`, and the weighted sum of the value rows at feature `d`. -/
def Z (q k : A4.Idx → EReal) (h : Fin 16) (i : Fin 2048) : EReal := ∑ j : Fin 2048, w q k h i j
def O (q k v : A4.Idx → EReal) (h : Fin 16) (i : Fin 2048) (d : Fin 64) : EReal :=
  ∑ j : Fin 2048, w q k h i j * v (ix4 (0 : Fin 1) h j d)

/-- The result at head `h`, row `i`, feature `d`. -/
def Gat (q k v : A4.Idx → EReal) (h : Fin 16) (i : Fin 2048) (d : Fin 64) : EReal :=
  Ideal.div (O q k v h i d) (Z q k h i + eps)

/-- The result array. -/
def G (q k v : A4.Idx → EReal) : A4.Idx → EReal := fun x => Gat q k v (x 1) (x 2) (x 3)

/-! ## Blocks of 512 rows -/

/-- Row `r` of block `b`. -/
def row (b : Fin 4) (r : Fin 512) : Fin 2048 := ⟨b.val * 512 + r.val, by omega⟩

/-- One key block's contribution to the normaliser and to the weighted sum, for row `r` of query block `qb`. -/
def blkZ (q k : A4.Idx → EReal) (h : Fin 16) (qb kb : Fin 4) (r : Fin 512) : EReal :=
  ∑ c : Fin 512, w q k h (row qb r) (row kb c)
def blkO (q k v : A4.Idx → EReal) (h : Fin 16) (qb kb : Fin 4) (r : Fin 512) (d : Fin 64) : EReal :=
  ∑ c : Fin 512, w q k h (row qb r) (row kb c) * v (ix4 (0 : Fin 1) h (row kb c) d)

/-- The sums over the first `n` key blocks. -/
def Zp (q k : A4.Idx → EReal) (h : Fin 16) (qb : Fin 4) (n : ℕ) (r : Fin 512) : EReal :=
  ∑ kb : Fin 4, if kb.val < n then blkZ q k h qb kb r else 0
def Op (q k v : A4.Idx → EReal) (h : Fin 16) (qb : Fin 4) (n : ℕ) (r : Fin 512) (d : Fin 64) : EReal :=
  ∑ kb : Fin 4, if kb.val < n then blkO q k v h qb kb r d else 0

end Attn

end
-- ==== Proof.KBlocks.lean ====
/-
  The three input blocks of a grid point, in terms of the argument arrays.

  Point `t` of the 16 × 4 × 4 grid is `head · 16 + query block · 4 + key block`.  The pipeline stages, of the three
  arrays reshaped to 16 × 2048 × 64, the query rows of block `query block` and the key and value rows of block
  `min (key block) (query block)`, all of head `head`; the reshape from 1 × 16 × 2048 × 64 only drops the unit axis.
-/
import proofs.«177288_j29240137351227_1_alg».proof.Proof.Hand.Acc
import proofs.«177288_j29240137351227_1_alg».proof.Proof.Spec
import Idealize.ShloMosaic.Lib.ValueIdx
import Idealize.ShloMosaic.Lib.Pipeline.Value
import Idealize.ShloMosaic.Lib.ValueLayout
import Idealize.ShloMosaic.Lib.StableHlo.Run
import Idealize.ShloMosaic.Lib.Decide

set_option maxRecDepth 16384

noncomputable section

namespace Cert.KernelIdeal.KValue

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)
open scoped BigOperators

variable (m : (ℓ : Loc nD τ sig) → Buf (Elt Ideal) ℓ)

/-- The three argument arrays on core `c`, as launched. -/
abbrev qA (c : Dev nD) : Attn.A4.Idx → EReal := m ((c.tc : Thread nD τ).loc main_arg0)
abbrev kA (c : Dev nD) : Attn.A4.Idx → EReal := m ((c.tc : Thread nD τ).loc main_arg1)
abbrev vA (c : Dev nD) : Attn.A4.Idx → EReal := m ((c.tc : Thread nD τ).loc main_arg2)

/-- The head, the query block and the key block of point `t`, and the key block the pipeline stages there. -/
def hd (t : Fin cfg0.N) : Fin 16 := ⟨t.val / 16, by have := t.isLt; have : cfg0.N = 256 := N_0; omega⟩
def qbk (t : Fin cfg0.N) : Fin 4 := ⟨t.val / 4 % 4, by omega⟩
def kbk (t : Fin cfg0.N) : Fin 4 := ⟨t.val % 4, by omega⟩
def kmin (t : Fin cfg0.N) : Fin 4 := ⟨min (t.val % 4) (t.val / 4 % 4), by omega⟩

/-- The three coordinates of point `t`, decided over the 256 points. -/
private theorem coords_facts : ∀ t : Fin cfg0.N, ((grid0.coords t) 0).val = t.val / 16 ∧ ((grid0.coords t) 1).val = t.val / 4 % 4
    ∧ ((grid0.coords t) 2).val = t.val % 4 :=
  (by decide +kernel : ∀ t : Fin grid0.N, ((grid0.coords t) 0).val = t.val / 16 ∧ ((grid0.coords t) 1).val = t.val / 4 % 4
    ∧ ((grid0.coords t) 2).val = t.val % 4)

/-- The grid coordinates of point `t`. -/
theorem coords1 (t : Fin cfg0.N) : ((grid0.coords t) 1).val = (qbk t).val := (coords_facts t).2.1
theorem coords2 (t : Fin cfg0.N) : ((grid0.coords t) 2).val = (kbk t).val := (coords_facts t).2.2

/-- The block indices of the three input windows, decided over the 256 points: the query window sits at
    (head, query block, 0), the key and value windows at (head, min (key block) (query block), 0). -/
private theorem idx_facts0 : ∀ t : Fin cfg0.N, win0_0.index t (0 : Fin 3) = t.val / 16 ∧ win0_0.index t (1 : Fin 3) = t.val / 4 % 4
    ∧ win0_0.index t (2 : Fin 3) = 0 :=
  (by decide +kernel : ∀ t : Fin grid0.N, win0_0.index t (0 : Fin 3) = t.val / 16 ∧ win0_0.index t (1 : Fin 3) = t.val / 4 % 4
    ∧ win0_0.index t (2 : Fin 3) = 0)
private theorem idx_facts1 : ∀ t : Fin cfg0.N, win0_1.index t (0 : Fin 3) = t.val / 16
    ∧ win0_1.index t (1 : Fin 3) = min (t.val % 4) (t.val / 4 % 4) ∧ win0_1.index t (2 : Fin 3) = 0 :=
  (by decide +kernel : ∀ t : Fin grid0.N, win0_1.index t (0 : Fin 3) = t.val / 16
    ∧ win0_1.index t (1 : Fin 3) = min (t.val % 4) (t.val / 4 % 4) ∧ win0_1.index t (2 : Fin 3) = 0)
private theorem idx_facts2 : ∀ t : Fin cfg0.N, win0_2.index t (0 : Fin 3) = t.val / 16
    ∧ win0_2.index t (1 : Fin 3) = min (t.val % 4) (t.val / 4 % 4) ∧ win0_2.index t (2 : Fin 3) = 0 :=
  (by decide +kernel : ∀ t : Fin grid0.N, win0_2.index t (0 : Fin 3) = t.val / 16
    ∧ win0_2.index t (1 : Fin 3) = min (t.val % 4) (t.val / 4 % 4) ∧ win0_2.index t (2 : Fin 3) = 0)

/-- The reshaped query array as the region finds it: the reshape only drops the unit axis. -/
private theorem V_q (c : Dev nD) (h : Fin 16) (i : Fin 2048) (e : Fin 64) :
    (V m c main_v0 : S16x2048x64.Idx → EReal) (ix3 h i e) = qA m c (ix4 (0 : Fin 1) h i e) := by
  have e0 : (V m c main_v0 : S16x2048x64.Idx → EReal)
      = shapeCast S16x2048x64 (m ((c : Thread nD τ).loc main_arg0)) shapeCasts_S1x16x2048x64_S16x2048x64 := by
    show StableHlo.after hostOps0 (fun b => m (c, b)) (Proc.devRef .tc main_v0) = _
    after_results; rfl
  rw [e0]
  exact shapeCast_1abc_abc_apply _ _ h i e

private theorem V_k (c : Dev nD) (h : Fin 16) (i : Fin 2048) (e : Fin 64) :
    (V m c main_v1 : S16x2048x64.Idx → EReal) (ix3 h i e) = kA m c (ix4 (0 : Fin 1) h i e) := by
  have e0 : (V m c main_v1 : S16x2048x64.Idx → EReal)
      = shapeCast S16x2048x64 (m ((c : Thread nD τ).loc main_arg1)) shapeCasts_S1x16x2048x64_S16x2048x64 := by
    show StableHlo.after hostOps0 (fun b => m (c, b)) (Proc.devRef .tc main_v1) = _
    after_results; rfl
  rw [e0]
  exact shapeCast_1abc_abc_apply _ _ h i e
private theorem V_v (c : Dev nD) (h : Fin 16) (i : Fin 2048) (e : Fin 64) :
    (V m c main_v2 : S16x2048x64.Idx → EReal) (ix3 h i e) = vA m c (ix4 (0 : Fin 1) h i e) := by
  have e0 : (V m c main_v2 : S16x2048x64.Idx → EReal)
      = shapeCast S16x2048x64 (m ((c : Thread nD τ).loc main_arg2)) shapeCasts_S1x16x2048x64_S16x2048x64 := by
    show StableHlo.after hostOps0 (fun b => m (c, b)) (Proc.devRef .tc main_v2) = _
    after_results; rfl
  rw [e0]
  exact shapeCast_1abc_abc_apply _ _ h i e

/-- Where an element of the query window's block at point `t` sits in the reshaped array: on each axis at the
    block index times the block size plus its own coordinate. -/
private theorem emb_q (t : Fin cfg0.N) (r : Fin 512) (e : Fin 64) :
    ((cfg0.win 0).blk t).view.emb (ix3 (0 : Fin 1) r e) = (ix3 (hd t) (Attn.row (qbk t) r) e : S16x2048x64.Idx) := by
  obtain ⟨e0, e1, e2⟩ := idx_facts0 t
  funext a; apply Fin.ext
  match a with
  | ⟨0, _⟩ => show win0_0.index t (0 : Fin 3) * 1 + 1 * 0 = t.val / 16; omega
  | ⟨1, _⟩ => show win0_0.index t (1 : Fin 3) * 512 + 1 * r.val = t.val / 4 % 4 * 512 + r.val; omega
  | ⟨2, _⟩ => show win0_0.index t (2 : Fin 3) * 64 + 1 * e.val = e.val; omega

/-- Row `r`, feature `e` of the query block at point `t` is the query array at head `hd t`, row `r` of block `qbk t`. -/
theorem xq_apply (c : Dev nD) (t : Fin cfg0.N) (r : Fin 512) (e : Fin 64) :
    xq m c t (ix3 (0 : Fin 1) r e) = qA m c (ix4 (0 : Fin 1) (hd t) (Attn.row (qbk t) r) e) := by
  show V m c main_v0 (((cfg0.win 0).blk t).view.emb (ix3 (0 : Fin 1) r e)) = _
  rw [emb_q t r e]
  exact V_q m c _ _ _
/-- The same for the key and the value windows, whose block on the row axis is the smaller of the key block and the
    query block. -/
private theorem emb_k (t : Fin cfg0.N) (r : Fin 512) (e : Fin 64) :
    ((cfg0.win 1).blk t).view.emb (ix3 (0 : Fin 1) r e) = (ix3 (hd t) (Attn.row (kmin t) r) e : S16x2048x64.Idx) := by
  obtain ⟨e0, e1, e2⟩ := idx_facts1 t
  funext a; apply Fin.ext
  match a with
  | ⟨0, _⟩ => show win0_1.index t (0 : Fin 3) * 1 + 1 * 0 = t.val / 16; omega
  | ⟨1, _⟩ => show win0_1.index t (1 : Fin 3) * 512 + 1 * r.val = min (t.val % 4) (t.val / 4 % 4) * 512 + r.val; omega
  | ⟨2, _⟩ => show win0_1.index t (2 : Fin 3) * 64 + 1 * e.val = e.val; omega
private theorem emb_v (t : Fin cfg0.N) (r : Fin 512) (e : Fin 64) :
    ((cfg0.win 2).blk t).view.emb (ix3 (0 : Fin 1) r e) = (ix3 (hd t) (Attn.row (kmin t) r) e : S16x2048x64.Idx) := by
  obtain ⟨e0, e1, e2⟩ := idx_facts2 t
  funext a; apply Fin.ext
  match a with
  | ⟨0, _⟩ => show win0_2.index t (0 : Fin 3) * 1 + 1 * 0 = t.val / 16; omega
  | ⟨1, _⟩ => show win0_2.index t (1 : Fin 3) * 512 + 1 * r.val = min (t.val % 4) (t.val / 4 % 4) * 512 + r.val; omega
  | ⟨2, _⟩ => show win0_2.index t (2 : Fin 3) * 64 + 1 * e.val = e.val; omega

/-- The key and value blocks are those of block `kmin t`. -/
theorem xk_apply (c : Dev nD) (t : Fin cfg0.N) (r : Fin 512) (e : Fin 64) :
    xk m c t (ix3 (0 : Fin 1) r e) = kA m c (ix4 (0 : Fin 1) (hd t) (Attn.row (kmin t) r) e) := by
  show V m c main_v1 (((cfg0.win 1).blk t).view.emb (ix3 (0 : Fin 1) r e)) = _
  rw [emb_k t r e]
  exact V_k m c _ _ _
theorem xv_apply (c : Dev nD) (t : Fin cfg0.N) (r : Fin 512) (e : Fin 64) :
    xv m c t (ix3 (0 : Fin 1) r e) = vA m c (ix4 (0 : Fin 1) (hd t) (Attn.row (kmin t) r) e) := by
  show V m c main_v2 (((cfg0.win 2).blk t).view.emb (ix3 (0 : Fin 1) r e)) = _
  rw [emb_v t r e]
  exact V_v m c _ _ _

end Cert.KernelIdeal.KValue

end
-- ==== Proof.PayValue.lean ====
/-
  The body's store payloads, read at an index over the extended reals.

  With `x0`, `x1`, `x2` the query, key and value blocks of a point (each 1 × 512 × 64) at query block `qb` and key
  block `kb`: the masked squared score of row `r` against key row `c` is `bw` — the inner product over the 64
  features, scaled by 1/8 and squared, kept when the key row's global index `kb·512 + c` is at most the query
  row's `qb·512 + r`, else `0` (the two changes of float format and the transpose are the identity on values).
  The sum of weights grows by `∑ c, bw r c`, the weighted sum by `∑ c, bw r c · x2 c d`, and the stored quotient is
  the weighted sum over the sum of weights plus ε.
-/
import proofs.«177288_j29240137351227_1_alg».proof.Proof.Gen.KernelIdeal.Skeleton
import proofs.«177288_j29240137351227_1_alg».proof.Proof.Spec
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

noncomputable section

namespace Cert.KernelIdeal.PayValue

open Cert.KernelIdeal Cert.KernelIdeal.Gen
open Idealize.ShloMosaic Idealize.ShloMosaic.ValueIdx
open scoped BigOperators

/-- The inner product of row `r` of the query block with row `c` of the key block. -/
def bdot (x0 x1 : Vec Ideal S1x512x64 .f32) (r c : Fin 512) : EReal :=
  ∑ e : Fin 64, x0 (ix3 (0 : Fin 1) r e) * x1 (ix3 (0 : Fin 1) c e)

/-- The masked squared scaled score. -/
def bw (qb kb : Fin 4) (x0 x1 : Vec Ideal S1x512x64 .f32) (r c : Fin 512) : EReal :=
  if kb.val * 512 + c.val ≤ qb.val * 512 + r.val then (bdot x0 x1 r c * Attn.cS) * (bdot x0 x1 r c * Attn.cS) else 0

/-! ## Two column forms of the layout operations -/

/-- A vector of length `a` cast to an `a × 1` column reads, at `(i, u)`, the vector at `i`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast over `b` columns reads, at `(p, c)`, the column at row `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two zero splats, the identity cast and the stored quotient -/

theorem pay1_apply (r : Fin 512) (d : Fin 64) : k0_pay1 (F := Ideal) (ix2 r d) = 0 := by
  unfold k0_pay1
  rw [shapeCast_self]
  exact Ideal.ofBits_zero_f32

theorem pay2_apply (r : Fin 512) : k0_pay2 (F := Ideal) (ix2 r (0 : Fin 1)) = 0 := by
  unfold k0_pay2
  rw [shapeCast_self]
  exact Ideal.ofBits_zero_f32

theorem pay3_eq (v : FVec Ideal S512x64 .f32) : k0_pay3 (F := Ideal) v = v := by
  unfold k0_pay3
  exact shapeCast_self _ _

/-! ## The causal mask bit

Both compared words are `block · 512 + offset` with `block < 4` and `offset < 512`, so they are below `2³¹`: no
product or sum wraps, and the signed comparison of the words is the comparison of the naturals. -/

private theorem word_toNat (a : Fin 4) (r : Fin 512) :
    (BitVec.ofNat 32 a.val * 512#32 + BitVec.ofNat 32 r.val).toNat = a.val * 512 + r.val := by
  have ha := a.isLt; have hr := r.isLt
  simp only [BitVec.toNat_add, BitVec.toNat_mul, BitVec.toNat_ofNat]
  omega

private theorem sle_word (x y : BitVec 32) (hx : x.toNat < 2 ^ 31) (hy : y.toNat < 2 ^ 31) :
    IntOp.cmpi .sle x y = if x.toNat ≤ y.toNat then 1#1 else 0#1 := by
  by_cases h : x.toNat ≤ y.toNat
  · rw [if_pos h]; exact (StableHlo.Predicate.sle_iff_toNat hx hy).mpr h
  · rw [if_neg h]; exact eq_zero_of_ne_one fun h1 => h ((StableHlo.Predicate.sle_iff_toNat hx hy).mp h1)

private theorem mask_apply (qb kb : Fin 4) (r c : Fin 512) (h0 : S512x512.Iotas .tc 32 [0]) (h1 : S512x512.Iotas .tc 32 [1]) :
    cmpi .sle (addi (broadcast S512x512 (Scalar.muli (BitVec.ofNat 32 kb.val) 512#32)) (iota .tc S512x512 32 [1] h1))
        (addi (broadcast S512x512 (Scalar.muli (BitVec.ofNat 32 qb.val) 512#32)) (iota .tc S512x512 32 [0] h0)) (ix2 r c)
      = if kb.val * 512 + c.val ≤ qb.val * 512 + r.val then 1#1 else 0#1 := by
  show IntOp.cmpi .sle (IntOp.addi (Scalar.muli (BitVec.ofNat 32 kb.val) 512#32) (iota .tc S512x512 32 [1] h1 (ix2 r c)))
      (IntOp.addi (Scalar.muli (BitVec.ofNat 32 qb.val) 512#32) (iota .tc S512x512 32 [0] h0 (ix2 r c))) = _
  rw [iota_single_apply, iota_single_apply]
  show IntOp.cmpi .sle (BitVec.ofNat 32 kb.val * 512#32 + BitVec.ofNat 32 c.val)
      (BitVec.ofNat 32 qb.val * 512#32 + BitVec.ofNat 32 r.val) = _
  have hk := word_toNat kb c
  have hq := word_toNat qb r
  have := kb.isLt; have := qb.isLt; have := c.isLt; have := r.isLt
  rw [sle_word _ _ (by rw [hk]; omega) (by rw [hq]; omega), hk, hq]

/-! ## The score matmul read at an index

The dot of a `512 × 64` left operand with a `64 × 512` right operand contracts the left's axis 1 with the right's
axis 0: at `(r, c)` and contraction coordinate `e` it reads the left at `(r, e)` and the right at `(e, c)`. -/

private theorem lhs_score_0 (i : S512x512.Idx) (q : dot_S512x64_S64x512_S512x512_1_0_0_1_n_n.contr.Idx) :
    (dot_S512x64_S64x512_S512x512_1_0_0_1_n_n.lhsIdx i q 0).val = (i 0).val := by
  unfold DotDims.lhsIdx
  rw [dif_neg (show ¬(0 : Fin S512x64.rank) ∈ dot_S512x64_S64x512_S512x512_1_0_0_1_n_n.lhsBatch by decide), dif_pos (show (0 : Fin S512x64.rank) ∈ dot_S512x64_S64x512_S512x512_1_0_0_1_n_n.lhsNonContracting by decide)]
  rfl
private theorem lhs_score_1 (i : S512x512.Idx) (q : dot_S512x64_S64x512_S512x512_1_0_0_1_n_n.contr.Idx) :
    (dot_S512x64_S64x512_S512x512_1_0_0_1_n_n.lhsIdx i q 1).val = (q ⟨0, by decide⟩).val :=
  dot_S512x64_S64x512_S512x512_1_0_0_1_n_n.lhsIdx_val_of_single rfl i q
private theorem rhs_score_0 (i : S512x512.Idx) (q : dot_S512x64_S64x512_S512x512_1_0_0_1_n_n.contr.Idx) :
    (dot_S512x64_S64x512_S512x512_1_0_0_1_n_n.rhsIdx i q 0).val = (q ⟨0, by decide⟩).val :=
  dot_S512x64_S64x512_S512x512_1_0_0_1_n_n.rhsIdx_val_of_single rfl i q
private theorem rhs_score_1 (i : S512x512.Idx) (q : dot_S512x64_S64x512_S512x512_1_0_0_1_n_n.contr.Idx) :
    (dot_S512x64_S64x512_S512x512_1_0_0_1_n_n.rhsIdx i q 1).val = (i 1).val := by
  unfold DotDims.rhsIdx
  rw [dif_neg (show ¬(1 : Fin S64x512.rank) ∈ dot_S512x64_S64x512_S512x512_1_0_0_1_n_n.rhsBatch by decide), dif_pos (show (1 : Fin S64x512.rank) ∈ dot_S512x64_S64x512_S512x512_1_0_0_1_n_n.rhsNonContracting by decide)]
  rfl

private theorem score_apply (a : FVec Ideal S512x64 .bf16) (b : FVec Ideal S64x512 .bf16) (r c : Fin 512) :
    matmul dot_S512x64_S64x512_S512x512_1_0_0_1_n_n none a b (constant (F := Ideal) S512x512 .f32 0x00000000#32) (ix2 r c)
      = ∑ e : Fin 64, a (ix2 r e) * b (ix2 e c) := by
  simp only [matmul]
  rw [Ideal.matmul_constant_zero_apply, ← Equiv.sum_comp (contrEquiv1 dot_S512x64_S64x512_S512x512_1_0_0_1_n_n 64 rfl rfl).symm]
  refine Finset.sum_congr rfl fun k _ => ?_
  have hk := contrEquiv1_symm_val dot_S512x64_S64x512_S512x512_1_0_0_1_n_n 64 rfl rfl k
  have el : dot_S512x64_S64x512_S512x512_1_0_0_1_n_n.lhsIdx (ix2 r c) ((contrEquiv1 dot_S512x64_S64x512_S512x512_1_0_0_1_n_n 64 rfl rfl).symm k) = ix2 r k := funext fun ax => Fin.ext (by
    match ax with
    | ⟨0, _⟩ => exact lhs_score_0 _ _
    | ⟨1, _⟩ => exact (lhs_score_1 _ _).trans hk)
  have er : dot_S512x64_S64x512_S512x512_1_0_0_1_n_n.rhsIdx (ix2 r c) ((contrEquiv1 dot_S512x64_S64x512_S512x512_1_0_0_1_n_n 64 rfl rfl).symm k) = ix2 k c := funext fun ax => Fin.ext (by
    match ax with
    | ⟨0, _⟩ => exact (rhs_score_0 _ _).trans hk
    | ⟨1, _⟩ => exact rhs_score_1 _ _)
  rw [el, er]

/-- The score matmul of the body, over the query block as `512 × 64` and the transposed key block: the inner product
    of query row `r` with key row `c` (the casts to the narrower float format are the identity on values). -/
private theorem score_eq (x0 x1 : Vec Ideal S1x512x64 .f32) (hc : S1x512x64.ShapeCasts S512x64)
    (hb : FTy.bits .bf16 < FTy.bits .f32) (ht : S512x64.Transposes [1, 0] S64x512) (r c : Fin 512) :
    matmul dot_S512x64_S64x512_S512x512_1_0_0_1_n_n none (truncf .bf16 (shapeCast S512x64 x0 hc) hb)
        (transpose S64x512 [1, 0] (truncf .bf16 (shapeCast S512x64 x1 hc) hb) ht)
        (constant (F := Ideal) S512x512 .f32 0x00000000#32) (ix2 r c)
      = bdot x0 x1 r c := by
  rw [score_apply]
  unfold bdot
  refine Finset.sum_congr rfl fun e _ => ?_
  rw [truncf_apply, shapeCast_1ab_ab_apply, transpose_ix2_apply, truncf_apply, shapeCast_1ab_ab_apply]

/-! ## The weighted-sum matmul read at an index

The dot of the `512 × 512` weights with a `512 × 64` right operand contracts the weights' axis 1 with the right's
axis 0: at `(r, d)` and contraction coordinate `c` it reads the weights at `(r, c)` and the right at `(c, d)`. -/

private theorem lhs_out_0 (i : S512x64.Idx) (q : dot_S512x512_S512x64_S512x64_1_0_0_1_n_n.contr.Idx) :
    (dot_S512x512_S512x64_S512x64_1_0_0_1_n_n.lhsIdx i q 0).val = (i 0).val := by
  unfold DotDims.lhsIdx
  rw [dif_neg (show ¬(0 : Fin S512x512.rank) ∈ dot_S512x512_S512x64_S512x64_1_0_0_1_n_n.lhsBatch by decide), dif_pos (show (0 : Fin S512x512.rank) ∈ dot_S512x512_S512x64_S512x64_1_0_0_1_n_n.lhsNonContracting by decide)]
  rfl
private theorem lhs_out_1 (i : S512x64.Idx) (q : dot_S512x512_S512x64_S512x64_1_0_0_1_n_n.contr.Idx) :
    (dot_S512x512_S512x64_S512x64_1_0_0_1_n_n.lhsIdx i q 1).val = (q ⟨0, by decide⟩).val :=
  dot_S512x512_S512x64_S512x64_1_0_0_1_n_n.lhsIdx_val_of_single rfl i q
private theorem rhs_out_0 (i : S512x64.Idx) (q : dot_S512x512_S512x64_S512x64_1_0_0_1_n_n.contr.Idx) :
    (dot_S512x512_S512x64_S512x64_1_0_0_1_n_n.rhsIdx i q 0).val = (q ⟨0, by decide⟩).val :=
  dot_S512x512_S512x64_S512x64_1_0_0_1_n_n.rhsIdx_val_of_single rfl i q
private theorem rhs_out_1 (i : S512x64.Idx) (q : dot_S512x512_S512x64_S512x64_1_0_0_1_n_n.contr.Idx) :
    (dot_S512x512_S512x64_S512x64_1_0_0_1_n_n.rhsIdx i q 1).val = (i 1).val := by
  unfold DotDims.rhsIdx
  rw [dif_neg (show ¬(1 : Fin S512x64.rank) ∈ dot_S512x512_S512x64_S512x64_1_0_0_1_n_n.rhsBatch by decide), dif_pos (show (1 : Fin S512x64.rank) ∈ dot_S512x512_S512x64_S512x64_1_0_0_1_n_n.rhsNonContracting by decide)]
  rfl

private theorem out_apply (a : FVec Ideal S512x512 .bf16) (b : FVec Ideal S512x64 .bf16) (r : Fin 512) (d : Fin 64) :
    matmul dot_S512x512_S512x64_S512x64_1_0_0_1_n_n none a b (constant (F := Ideal) S512x64 .f32 0x00000000#32) (ix2 r d)
      = ∑ c : Fin 512, a (ix2 r c) * b (ix2 c d) := by
  simp only [matmul]
  rw [Ideal.matmul_constant_zero_apply, ← Equiv.sum_comp (contrEquiv1 dot_S512x512_S512x64_S512x64_1_0_0_1_n_n 512 rfl rfl).symm]
  refine Finset.sum_congr rfl fun k _ => ?_
  have hk := contrEquiv1_symm_val dot_S512x512_S512x64_S512x64_1_0_0_1_n_n 512 rfl rfl k
  have el : dot_S512x512_S512x64_S512x64_1_0_0_1_n_n.lhsIdx (ix2 r d) ((contrEquiv1 dot_S512x512_S512x64_S512x64_1_0_0_1_n_n 512 rfl rfl).symm k) = ix2 r k := funext fun ax => Fin.ext (by
    match ax with
    | ⟨0, _⟩ => exact lhs_out_0 _ _
    | ⟨1, _⟩ => exact (lhs_out_1 _ _).trans hk)
  have er : dot_S512x512_S512x64_S512x64_1_0_0_1_n_n.rhsIdx (ix2 r d) ((contrEquiv1 dot_S512x512_S512x64_S512x64_1_0_0_1_n_n 512 rfl rfl).symm k) = ix2 k d := funext fun ax => Fin.ext (by
    match ax with
    | ⟨0, _⟩ => exact (rhs_out_0 _ _).trans hk
    | ⟨1, _⟩ => exact rhs_out_1 _ _)
  rw [el, er]

/-! ## The lane sum read at an index -/

/-- The sum over axis 1 of a `512 × 512` array, read at row `r`, is the sum of that row's 512 entries. -/
private theorem laneSum_apply (v : FVec Ideal S512x512 .f32) (h : S512x512.Reduces [1] S512) (hφ : FKind.Formats .f32)
    (hacc : (0x00000000#32 : BitVec 32) = 0x00000000#32) (r : Fin 512) :
    multiReduction (F := Ideal) .add [1] S512 v 0x00000000#32 h hφ hacc (ix1 r) = ∑ c : Fin 512, v (ix2 r c) := by
  refine (Ideal.multiReduction_add_single v 0x00000000#32 h hφ hacc (ix1 r)).trans ?_
  refine Finset.sum_congr rfl fun c _ => congrArg v ?_
  funext ax
  match ax with
  | ⟨0, _⟩ => exact Fin.ext rfl
  | ⟨1, _⟩ => exact Fin.ext rfl

/-! ## The masked scores, the sum of weights and the weighted sum -/

theorem pay5_apply (qb kb : Fin 4) (x0 x1 : Vec Ideal S1x512x64 .f32) (r c : Fin 512) :
    k0_pay5 (F := Ideal) (BitVec.ofNat 32 qb.val) (BitVec.ofNat 32 kb.val) x0 x1 (ix2 r c) = bw qb kb x0 x1 r c := by
  unfold k0_pay5
  rw [select_apply, mask_apply qb kb r c]
  simp only [mulf_apply, broadcast_apply]
  rw [score_eq]
  unfold bw
  by_cases h : kb.val * 512 + c.val ≤ qb.val * 512 + r.val
  · rw [if_pos h, if_pos h, select_one]; rfl
  · rw [if_neg h, if_neg h, select_zero]; exact Ideal.ofBits_zero_f32

theorem pay6_apply (qb kb : Fin 4) (x0 x1 : Vec Ideal S1x512x64 .f32) (z : Vec Ideal S512x1 .f32) (r : Fin 512) :
    k0_pay6 (F := Ideal) (BitVec.ofNat 32 qb.val) (BitVec.ofNat 32 kb.val) x0 x1 z (ix2 r (0 : Fin 1))
      = z (ix2 r (0 : Fin 1)) + ∑ c : Fin 512, bw qb kb x0 x1 r c := by
  unfold k0_pay6
  rw [shapeCast_self, addf_apply, shapeCast_a_a1_apply]
  refine congrArg (z (ix2 r (0 : Fin 1)) + ·) ((laneSum_apply _ _ _ _ r).trans ?_)
  exact Finset.sum_congr rfl fun c _ => pay5_apply qb kb x0 x1 r c

theorem pay7_apply (qb kb : Fin 4) (x0 x1 x2 : Vec Ideal S1x512x64 .f32) (o : Vec Ideal S512x64 .f32) (r : Fin 512) (d : Fin 64) :
    k0_pay7 (F := Ideal) (BitVec.ofNat 32 qb.val) (BitVec.ofNat 32 kb.val) x0 x1 x2 o (ix2 r d)
      = o (ix2 r d) + ∑ c : Fin 512, bw qb kb x0 x1 r c * x2 (ix3 (0 : Fin 1) c d) := by
  unfold k0_pay7
  rw [addf_apply, out_apply]
  refine congrArg (o (ix2 r d) + ·) (Finset.sum_congr rfl fun c _ => ?_)
  rw [truncf_apply, pay5_apply, truncf_apply, shapeCast_1ab_ab_apply]

theorem pay4_apply (o : Vec Ideal S512x64 .f32) (z : Vec Ideal S512x1 .f32) (r : Fin 512) (d : Fin 64) :
    k0_pay4 (F := Ideal) o z (ix3 (0 : Fin 1) r d) = Ideal.div (o (ix2 r d)) (z (ix2 r (0 : Fin 1)) + Attn.eps) := by
  unfold k0_pay4
  rw [shapeCast_ab_1ab_apply, divf_apply, broadcastTo_a1_ab_apply, addf_apply]
  rfl

end Cert.KernelIdeal.PayValue

end
-- ==== Proof.SpecAlg.lean ====
/-
  The sums over the 2048 key rows, regrouped in four blocks of 512.

  A key block strictly after the query row's own block has every weight `0` (each of its rows lies after the
  query row), so the sum over the first `qb + 1` blocks is already the whole sum (`Zp_full`, `Op_full`); the
  partial sums grow one block at a time (`Zp_succ`, `Op_succ`).  Only commutativity and associativity of `+` on the
  extended reals are used, and `0 · x = 0`, which hold at the infinities too.
-/
import proofs.«177288_j29240137351227_1_alg».proof.Proof.Spec
import Mathlib.Algebra.BigOperators.Fin
import Mathlib.Algebra.BigOperators.Group.Finset.Basic
import Mathlib.Data.EReal.Basic

noncomputable section

namespace Attn

open Idealize.ShloMosaic Idealize.ShloMosaic.ValueIdx
open scoped BigOperators

theorem Zp_zero (q k : A4.Idx → EReal) (h : Fin 16) (qb : Fin 4) (r : Fin 512) : Zp q k h qb 0 r = 0 := by
  simp [Zp]
theorem Op_zero (q k v : A4.Idx → EReal) (h : Fin 16) (qb : Fin 4) (r : Fin 512) (d : Fin 64) : Op q k v h qb 0 r d = 0 := by
  simp [Op]

/-- A sum over four terms gated by `kb < n + 1` is the one gated by `kb < n` plus term `n`: for each of the four
possible `n` both sides are the same finite sum once the gates are decided. -/
private theorem gate_succ {M : Type} [AddCommMonoid M] (f : Fin 4 → M) (n : ℕ) (hn : n < 4) :
    (∑ kb : Fin 4, if kb.val < n + 1 then f kb else 0) = (∑ kb : Fin 4, if kb.val < n then f kb else 0) + f ⟨n, hn⟩ := by
  interval_cases n <;> simp [Fin.sum_univ_four]

theorem Zp_succ (q k : A4.Idx → EReal) (h : Fin 16) (qb : Fin 4) (n : ℕ) (hn : n < 4) (r : Fin 512) :
    Zp q k h qb (n + 1) r = Zp q k h qb n r + blkZ q k h qb ⟨n, hn⟩ r :=
  gate_succ (fun kb => blkZ q k h qb kb r) n hn
theorem Op_succ (q k v : A4.Idx → EReal) (h : Fin 16) (qb : Fin 4) (n : ℕ) (hn : n < 4) (r : Fin 512) (d : Fin 64) :
    Op q k v h qb (n + 1) r d = Op q k v h qb n r d + blkO q k v h qb ⟨n, hn⟩ r d :=
  gate_succ (fun kb => blkO q k v h qb kb r d) n hn

/-- Every row of a later key block lies strictly after every row of the query block, so its weight is the masked `0`. -/
private theorem w_upper (q k : A4.Idx → EReal) (h : Fin 16) (qb kb : Fin 4) (hlt : qb.val < kb.val) (r c : Fin 512) :
    w q k h (row qb r) (row kb c) = 0 := by
  unfold w
  rw [if_neg]
  have hr := r.isLt
  simp only [row]
  omega

/-- A key block strictly after the query block contributes nothing. -/
theorem blkZ_upper (q k : A4.Idx → EReal) (h : Fin 16) (qb kb : Fin 4) (hlt : qb.val < kb.val) (r : Fin 512) :
    blkZ q k h qb kb r = 0 := by
  unfold blkZ
  exact Finset.sum_eq_zero (fun c _ => w_upper q k h qb kb hlt r c)
theorem blkO_upper (q k v : A4.Idx → EReal) (h : Fin 16) (qb kb : Fin 4) (hlt : qb.val < kb.val) (r : Fin 512) (d : Fin 64) :
    blkO q k v h qb kb r d = 0 := by
  unfold blkO
  exact Finset.sum_eq_zero (fun c _ => by rw [w_upper q k h qb kb hlt r c, zero_mul])

/-- The 2048 rows are exactly the pairs (block, row in the block): `j ↦ (j / 512, j % 512)` inverts `row`. -/
private def rowEquiv : Fin 4 × Fin 512 ≃ Fin 2048 where
  toFun p := row p.1 p.2
  invFun j := (⟨j.val / 512, by have := j.isLt; omega⟩, ⟨j.val % 512, by omega⟩)
  left_inv := by
    rintro ⟨a, b⟩
    have ha := a.isLt
    have hb := b.isLt
    ext
    · simp only [row]; omega
    · simp only [row]; omega
  right_inv := by
    intro j
    ext
    simp only [row]
    omega

/-- A sum over the 2048 rows is the sum over the four blocks of the sums over each block's 512 rows. -/
private theorem sum_rows {M : Type} [AddCommMonoid M] (f : Fin 2048 → M) :
    (∑ j : Fin 2048, f j) = ∑ kb : Fin 4, ∑ c : Fin 512, f (row kb c) := by
  rw [← Fintype.sum_prod_type' (f := fun kb c => f (row kb c))]
  exact (Fintype.sum_equiv rowEquiv (fun p => f (row p.1 p.2)) f (fun _ => rfl)).symm

/-- Gating the four block terms by `kb < qb + 1` changes nothing when the terms of the later blocks are `0`. -/
private theorem gate_full {M : Type} [AddCommMonoid M] (f : Fin 4 → M) (qb : Fin 4)
    (hf : ∀ kb : Fin 4, qb.val < kb.val → f kb = 0) :
    (∑ kb : Fin 4, if kb.val < qb.val + 1 then f kb else 0) = ∑ kb : Fin 4, f kb := by
  refine Finset.sum_congr rfl (fun kb _ => ?_)
  by_cases hk : kb.val < qb.val + 1
  · rw [if_pos hk]
  · rw [if_neg hk, hf kb (by omega)]

/-- The first `qb + 1` key blocks already make the whole sum over the 2048 key rows. -/
theorem Zp_full (q k : A4.Idx → EReal) (h : Fin 16) (qb : Fin 4) (r : Fin 512) :
    Zp q k h qb (qb.val + 1) r = Z q k h (row qb r) := by
  unfold Zp Z
  rw [sum_rows (fun j => w q k h (row qb r) j)]
  exact gate_full (fun kb => blkZ q k h qb kb r) qb (fun kb hlt => blkZ_upper q k h qb kb hlt r)
theorem Op_full (q k v : A4.Idx → EReal) (h : Fin 16) (qb : Fin 4) (r : Fin 512) (d : Fin 64) :
    Op q k v h qb (qb.val + 1) r d = O q k v h (row qb r) d := by
  unfold Op O
  rw [sum_rows (fun j => w q k h (row qb r) j * v (ix4 (0 : Fin 1) h j d))]
  exact gate_full (fun kb => blkO q k v h qb kb r d) qb (fun kb hlt => blkO_upper q k v h qb kb hlt r d)

end Attn

end
-- ==== Proof.KInv.lean ====
/-
  The accumulators after each grid point, as partial sums of the specification.

  After the point at head `h`, query block `qb` and key block `ki` the sum-of-weights accumulator holds, at row `r`,
  the sum over the first `min ki qb + 1` key blocks of the weights of query row `qb·512 + r`, and the weighted-sum
  accumulator the same sum of weights times value rows: key block 0 resets both to zero and adds block 0; a later
  key block not after the query block adds its own block to what the point before left; a key block after the
  query block leaves both as they are, and by then all `qb + 1` contributing blocks are in.  At key block 3 the
  stored quotient is therefore the specification's value at that row.
-/
import proofs.«177288_j29240137351227_1_alg».proof.Proof.KBlocks
import proofs.«177288_j29240137351227_1_alg».proof.Proof.PayValue
import proofs.«177288_j29240137351227_1_alg».proof.Proof.SpecAlg

set_option maxRecDepth 16384

noncomputable section

namespace Cert.KernelIdeal.KValue

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)
open scoped BigOperators

variable (m : (ℓ : Loc nD τ sig) → Buf (Elt Ideal) ℓ)

open Cert.KernelIdeal.PayValue

/-! ## The transition at a point, by the point's key block -/

/-- At a key block 0 the state before is discarded: the block's contribution is added to zeros. -/
private theorem step_first {t : Fin cfg0.N} (h0 : t.val % 4 = 0)
    (x0 x1 x2 : Vec Ideal S1x512x64 .f32) (s : Vec Ideal S512x64 .f32 × Vec Ideal S512x1 .f32) :
    step (grid0.coords t) x0 x1 x2 s
      = (k0_pay3 (k0_pay7 (BitVec.ofNat 32 (qbk t).val) (BitVec.ofNat 32 (kbk t).val) x0 x1 x2 (k0_pay1 (F := Ideal))),
          k0_pay6 (BitVec.ofNat 32 (qbk t).val) (BitVec.ofNat 32 (kbk t).val) x0 x1 (k0_pay2 (F := Ideal))) := by
  have hle : t.val % 4 ≤ t.val / 4 % 4 := by omega
  dsimp only [step]
  rw [if_pos ((hcond1 t).2 h0), if_pos ((hcond2 t).2 hle), coords1, coords2]

/-- At a later key block not after the query block the block's contribution is added to the state before. -/
private theorem step_add {t : Fin cfg0.N} (h0 : t.val % 4 ≠ 0) (hle : t.val % 4 ≤ t.val / 4 % 4)
    (x0 x1 x2 : Vec Ideal S1x512x64 .f32) (s : Vec Ideal S512x64 .f32 × Vec Ideal S512x1 .f32) :
    step (grid0.coords t) x0 x1 x2 s
      = (k0_pay3 (k0_pay7 (BitVec.ofNat 32 (qbk t).val) (BitVec.ofNat 32 (kbk t).val) x0 x1 x2 s.1),
          k0_pay6 (BitVec.ofNat 32 (qbk t).val) (BitVec.ofNat 32 (kbk t).val) x0 x1 s.2) := by
  dsimp only [step]
  rw [if_neg (fun h => h0 ((hcond1 t).1 h)), if_pos ((hcond2 t).2 hle), coords1, coords2]

/-- At a key block after the query block the state is kept. -/
private theorem step_keep {t : Fin cfg0.N} (h0 : t.val % 4 ≠ 0) (hgt : ¬ t.val % 4 ≤ t.val / 4 % 4)
    (x0 x1 x2 : Vec Ideal S1x512x64 .f32) (s : Vec Ideal S512x64 .f32 × Vec Ideal S512x1 .f32) :
    step (grid0.coords t) x0 x1 x2 s = s := by
  dsimp only [step]
  rw [if_neg (fun h => h0 ((hcond1 t).1 h)), if_neg (fun h => hgt ((hcond2 t).1 h))]

/-! ## The payload's block sums are the specification's -/

/-- Where the key block is not after the query block, the staged key block is the point's own. -/
private theorem kmin_eq_kbk {t : Fin cfg0.N} (hle : t.val % 4 ≤ t.val / 4 % 4) : kmin t = kbk t :=
  Fin.ext (by simp only [kmin, kbk]; omega)

/-- The inner product of two staged rows is the inner product of the arrays' rows they were staged from. -/
private theorem bdot_eq (c : Dev nD) (t : Fin cfg0.N) (r cc : Fin 512) :
    bdot (xq m c t) (xk m c t) r cc
      = Attn.dot (qA m c) (kA m c) (hd t) (Attn.row (qbk t) r) (Attn.row (kmin t) cc) := by
  unfold bdot Attn.dot
  exact Finset.sum_congr rfl fun e _ => by rw [xq_apply, xk_apply]

/-- The masked squared score of the staged blocks is the weight of the specification: the mask compares the same
    two absolute row numbers. -/
private theorem bw_eq (c : Dev nD) {t : Fin cfg0.N} (hle : t.val % 4 ≤ t.val / 4 % 4) (r cc : Fin 512) :
    bw (qbk t) (kbk t) (xq m c t) (xk m c t) r cc
      = Attn.w (qA m c) (kA m c) (hd t) (Attn.row (qbk t) r) (Attn.row (kbk t) cc) := by
  unfold bw Attn.w
  rw [bdot_eq, kmin_eq_kbk hle]
  rfl

private theorem sum_bw_eq (c : Dev nD) {t : Fin cfg0.N} (hle : t.val % 4 ≤ t.val / 4 % 4) (r : Fin 512) :
    (∑ cc : Fin 512, bw (qbk t) (kbk t) (xq m c t) (xk m c t) r cc)
      = Attn.blkZ (qA m c) (kA m c) (hd t) (qbk t) (kbk t) r := by
  unfold Attn.blkZ
  exact Finset.sum_congr rfl fun cc _ => bw_eq m c hle r cc

private theorem sum_bwv_eq (c : Dev nD) {t : Fin cfg0.N} (hle : t.val % 4 ≤ t.val / 4 % 4) (r : Fin 512) (d : Fin 64) :
    (∑ cc : Fin 512, bw (qbk t) (kbk t) (xq m c t) (xk m c t) r cc * xv m c t (ix3 (0 : Fin 1) cc d))
      = Attn.blkO (qA m c) (kA m c) (vA m c) (hd t) (qbk t) (kbk t) r d := by
  unfold Attn.blkO
  exact Finset.sum_congr rfl fun cc _ => by rw [bw_eq m c hle r cc, xv_apply, kmin_eq_kbk hle]

/-- Adding the point's block to partial sums over the blocks before it gives the partial sums through it. -/
private theorem add_point (c : Dev nD) {t : Fin cfg0.N} (hle : t.val % 4 ≤ t.val / 4 % 4)
    (o : Vec Ideal S512x64 .f32) (z : Vec Ideal S512x1 .f32) (r : Fin 512) (d : Fin 64)
    (ho : o (ix2 r d) = Attn.Op (qA m c) (kA m c) (vA m c) (hd t) (qbk t) (kbk t).val r d)
    (hz : z (ix2 r (0 : Fin 1)) = Attn.Zp (qA m c) (kA m c) (hd t) (qbk t) (kbk t).val r) :
    (k0_pay3 (k0_pay7 (BitVec.ofNat 32 (qbk t).val) (BitVec.ofNat 32 (kbk t).val) (xq m c t) (xk m c t) (xv m c t) o)) (ix2 r d)
        = Attn.Op (qA m c) (kA m c) (vA m c) (hd t) (qbk t) ((kmin t).val + 1) r d
      ∧ (k0_pay6 (BitVec.ofNat 32 (qbk t).val) (BitVec.ofNat 32 (kbk t).val) (xq m c t) (xk m c t) z) (ix2 r (0 : Fin 1))
        = Attn.Zp (qA m c) (kA m c) (hd t) (qbk t) ((kmin t).val + 1) r := by
  rw [kmin_eq_kbk hle, pay3_eq, pay7_apply, pay6_apply, sum_bw_eq m c hle, sum_bwv_eq m c hle,
    Attn.Op_succ _ _ _ _ _ (kbk t).val (kbk t).isLt, Attn.Zp_succ _ _ _ _ (kbk t).val (kbk t).isLt, ho, hz]
  exact ⟨rfl, rfl⟩

/-! ## The invariant -/

/-- One point: from the partial sums the point before left (needed only away from key block 0). -/
private theorem acc_point (c : Dev nD) (t : Fin cfg0.N)
    (hprev : t.val % 4 ≠ 0 → ∀ (r : Fin 512) (d : Fin 64),
      (prevAt m c t.val t.isLt).1 (ix2 r d)
          = Attn.Op (qA m c) (kA m c) (vA m c) (hd t) (qbk t) (min (t.val % 4 - 1) (t.val / 4 % 4) + 1) r d
        ∧ (prevAt m c t.val t.isLt).2 (ix2 r (0 : Fin 1))
          = Attn.Zp (qA m c) (kA m c) (hd t) (qbk t) (min (t.val % 4 - 1) (t.val / 4 % 4) + 1) r)
    (r : Fin 512) (d : Fin 64) :
    (accAt m c t.val t.isLt).1 (ix2 r d)
        = Attn.Op (qA m c) (kA m c) (vA m c) (hd t) (qbk t) ((kmin t).val + 1) r d
      ∧ (accAt m c t.val t.isLt).2 (ix2 r (0 : Fin 1))
        = Attn.Zp (qA m c) (kA m c) (hd t) (qbk t) ((kmin t).val + 1) r := by
  rw [accAt_eq]
  by_cases h0 : t.val % 4 = 0
  · -- key block 0: zeros plus block 0
    have hle : t.val % 4 ≤ t.val / 4 % 4 := by omega
    have hk0 : (kbk t).val = 0 := h0
    rw [step_first h0]
    refine add_point m c hle _ _ r d ?_ ?_
    · rw [pay1_apply, hk0, Attn.Op_zero]
    · rw [pay2_apply, hk0, Attn.Zp_zero]
  · by_cases hle : t.val % 4 ≤ t.val / 4 % 4
    · -- a later contributing key block
      have hn : min (t.val % 4 - 1) (t.val / 4 % 4) + 1 = (kbk t).val := by
        simp only [kbk]; omega
      have hp := hprev h0 r d
      rw [hn] at hp
      rw [step_add h0 hle]
      exact add_point m c hle _ _ r d hp.1 hp.2
    · -- a key block after the query block: nothing changes, every contributing block is already in
      have hn : min (t.val % 4 - 1) (t.val / 4 % 4) + 1 = (kmin t).val + 1 := by
        simp only [kmin]; omega
      have hp := hprev h0 r d
      rw [hn] at hp
      rw [step_keep h0 hle]
      exact hp

/-- The invariant at every point, by induction on the point: the point before a key block `ki > 0` has the same head
    and query block, and key block `ki - 1`. -/
private theorem acc_inv_nat (c : Dev nD) : ∀ (n : ℕ) (hn : n < cfg0.N) (r : Fin 512) (d : Fin 64),
    (accAt m c n hn).1 (ix2 r d)
        = Attn.Op (qA m c) (kA m c) (vA m c) (hd ⟨n, hn⟩) (qbk ⟨n, hn⟩) ((kmin ⟨n, hn⟩).val + 1) r d
      ∧ (accAt m c n hn).2 (ix2 r (0 : Fin 1))
        = Attn.Zp (qA m c) (kA m c) (hd ⟨n, hn⟩) (qbk ⟨n, hn⟩) ((kmin ⟨n, hn⟩).val + 1) r
  | 0, hn => acc_point m c ⟨0, hn⟩ (fun h => absurd (Nat.zero_mod 4) h)
  | k + 1, hn => acc_point m c ⟨k + 1, hn⟩ (fun h r d => by
      have h' : (k + 1) % 4 ≠ 0 := h
      have ih := acc_inv_nat c k (Nat.lt_of_succ_lt hn) r d
      have e1 : hd ⟨k, Nat.lt_of_succ_lt hn⟩ = hd ⟨k + 1, hn⟩ := Fin.ext (by simp only [hd]; omega)
      have e2 : qbk ⟨k, Nat.lt_of_succ_lt hn⟩ = qbk ⟨k + 1, hn⟩ := Fin.ext (by simp only [qbk]; omega)
      have e3 : (kmin ⟨k, Nat.lt_of_succ_lt hn⟩).val + 1 = min ((k + 1) % 4 - 1) ((k + 1) / 4 % 4) + 1 := by
        simp only [kmin]; omega
      rw [e1, e2, e3] at ih
      exact ih)

/-- The state after point `t`: the partial sums over the first `min ki qb + 1` key blocks. -/
theorem acc_inv (c : Dev nD) (t : Fin cfg0.N) (r : Fin 512) (d : Fin 64) :
    (accAt m c t.val t.isLt).1 (ix2 r d)
        = Attn.Op (qA m c) (kA m c) (vA m c) (hd t) (qbk t) ((kmin t).val + 1) r d
      ∧ (accAt m c t.val t.isLt).2 (ix2 r (0 : Fin 1))
        = Attn.Zp (qA m c) (kA m c) (hd t) (qbk t) ((kmin t).val + 1) r :=
  acc_inv_nat m c t.val t.isLt r d

/-- What the body stores into the output block at a key block 3: the specification at head `hd t`, row `r` of query
    block `qbk t`. -/
theorem outAt_apply (c : Dev nD) (t : Fin cfg0.N) (h3 : t.val % 4 = 3) (r : Fin 512) (d : Fin 64) :
    outAt m c t (ix3 (0 : Fin 1) r d)
      = Attn.Gat (qA m c) (kA m c) (vA m c) (hd t) (Attn.row (qbk t) r) d := by
  have hk : (kmin t).val = (qbk t).val := by
    simp only [kmin, qbk]; omega
  have hi := acc_inv m c t r d
  rw [hk, Attn.Op_full, Attn.Zp_full] at hi
  unfold outAt Attn.Gat
  rw [pay4_apply, hi.1, hi.2]

end Cert.KernelIdeal.KValue

end
-- ==== Proof.KArray.lean ====
/-
  From the output blocks to the result array.

  The output window is written back at the key block 3 of every (head, query block): those 64 blocks of 512 rows tile
  the 16 × 2048 × 64 array, and each holds the specification at its own rows, so the array the region leaves is the
  specification with the unit batch axis dropped; the reshape after the region puts that axis back.  With the
  frame's run this names the result of the whole program.
-/
import proofs.«177288_j29240137351227_1_alg».proof.Proof.Hand.Body
import proofs.«177288_j29240137351227_1_alg».proof.Proof.KInv
import Idealize.ShloMosaic.Lib.ValueIdx
import Idealize.ShloMosaic.Lib.Pipeline.Value
import Idealize.ShloMosaic.Lib.ValueLayout
import Idealize.ShloMosaic.Lib.StableHlo.Run
import Idealize.ShloMosaic.Lib.Decide

set_option maxRecDepth 16384

noncomputable section

namespace Cert.KernelIdeal.KValue

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)
open scoped BigOperators

variable (m : (ℓ : Loc nD τ sig) → Buf (Elt Ideal) ℓ)

/-- The array the region leaves in the output window's buffer: the specification, indexed by (head, row, feature). -/
def Gk (c : Dev nD) : S16x2048x64.Idx → EReal :=
  fun x => Attn.Gat (qA m c) (kA m c) (vA m c) (x 0) (x 1) (x 2)

/-- The block index of the output window, decided over the 256 points: (head, query block, 0). -/
private theorem idx_out : ∀ t : Fin cfg0.N, win0_3.index t (0 : Fin 3) = t.val / 16 ∧ win0_3.index t (1 : Fin 3) = t.val / 4 % 4
    ∧ win0_3.index t (2 : Fin 3) = 0 :=
  (by decide +kernel : ∀ t : Fin grid0.N, win0_3.index t (0 : Fin 3) = t.val / 16 ∧ win0_3.index t (1 : Fin 3) = t.val / 4 % 4
    ∧ win0_3.index t (2 : Fin 3) = 0)

/-- Where row `r`, feature `e` of the output block at point `t` sits in the array: head `hd t`, row `r` of
    block `qbk t`. -/
private theorem emb_out (t : Fin cfg0.N) (r : Fin 512) (e : Fin 64) :
    ((cfg0.win 3).blk t).view.emb (ix3 (0 : Fin 1) r e) = (ix3 (hd t) (Attn.row (qbk t) r) e : S16x2048x64.Idx) := by
  obtain ⟨e0, e1, e2⟩ := idx_out t
  funext a; apply Fin.ext
  match a with
  | ⟨0, _⟩ => show win0_3.index t (0 : Fin 3) * 1 + 1 * 0 = t.val / 16; omega
  | ⟨1, _⟩ => show win0_3.index t (1 : Fin 3) * 512 + 1 * r.val = t.val / 4 % 4 * 512 + r.val; omega
  | ⟨2, _⟩ => show win0_3.index t (2 : Fin 3) * 64 + 1 * e.val = e.val; omega

/-- At the last key block the output block holds the specification at its own place in the array. -/
private theorem out_apply (c : Dev nD) (t : Fin cfg0.N) (h3 : t.val % 4 = 3) (y : S1x512x64.Idx) :
    outAt m c t y = Gk m c (((cfg0.win 3).blk t).view.emb y) := by
  obtain ⟨u, r, d, rfl⟩ : ∃ (u : Fin 1) (r : Fin 512) (d : Fin 64), y = ix3 u r d := ⟨y 0, y 1, y 2, eq_ix3 y⟩
  obtain rfl : u = 0 := Subsingleton.elim _ _
  rw [emb_out t r d, outAt_apply m c t h3 r d]
  rfl

/-- What a writing point writes back is its block of `Gk`. -/
private theorem flushed_out (c : Dev nD) (t : Fin cfg0.N) (hf : (cfg0.win 3).flush t = true) :
    (dats m 0 c).flushed 3 t = ((cfg0.win 3).blk t).view.read (Elt Ideal) (Gk m c) := by
  have h3 : t.val % 4 = 3 := (flush0_3 t).mp hf
  show (cfg0.win 3).cut (grid0.coords t) ((dats m 0 c).after 3 t) = _
  rw [after3]
  funext y
  exact out_apply m c t h3 y

/-- An index of the array is in point `t`'s block iff each coordinate is in the block's range on its axis. -/
private theorem mem_blk_out (t : Fin cfg0.N) (i : S16x2048x64.Idx) :
    i ∈ ((cfg0.win 3).blk t).view.set ↔ ∀ a : Fin 3, win0_3.index t a * S1x512x64.size a ≤ (i a).val
      ∧ (i a).val < win0_3.index t a * S1x512x64.size a + S1x512x64.size a := by
  show i ∈ ((View.whole main_v3).slice (win0_3.rect t)).set ↔ _
  rw [View.set_slice_whole, Rect.mem_set_unit]
  exact Iff.rfl

/-- Row `i 1` of head `i 0` lies in the block written at the last key block of query block `i 1 / 512`. -/
private theorem cover_out (i : S16x2048x64.Idx) :
    ∃ t : Fin cfg0.N, (cfg0.win 3).flush t = true ∧ i ∈ ((cfg0.win 3).blk t).view.set := by
  have h0 : (i 0).val < 16 := (i 0).isLt
  have h1 : (i 1).val < 2048 := (i 1).isLt
  have h2 : (i 2).val < 64 := (i 2).isLt
  have hN : cfg0.N = 256 := N_0
  obtain ⟨t, ht⟩ : ∃ t : Fin cfg0.N, t.val = (i 0).val * 16 + (i 1).val / 512 * 4 + 3 := ⟨⟨_, by omega⟩, rfl⟩
  refine ⟨t, (flush0_3 t).mpr (by omega), ?_⟩
  rw [mem_blk_out]
  obtain ⟨e0, e1, e2⟩ := idx_out t
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 64 ≤ (i 2).val ∧ (i 2).val < win0_3.index t (2 : Fin 3) * 64 + 64; omega

/-- Every block written back is its block of `Gk`, and the blocks tile the array. -/
theorem final3 (c : Dev nD) : (dats m 0 c).arrAt 3 cfg0.N = Gk m c :=
  (dats m 0 c).arrAt_eq_of_cover 3 (Gk m c) (fun t hf => flushed_out m c t hf) cover_out

/-- The reshape after the region restores the unit batch axis. -/
theorem tail_v4 (c : Dev nD) :
    Pipeline.afterTail₀ cfgs (dats m) 0 (V0 m) [hostOps1] c main_v4 = Attn.G (qA m c) (kA m c) (vA m c) := by
  unfold Pipeline.afterTail₀
  show StableHlo.after hostOps1 _ (Proc.devRef .tc main_v4) = _
  after_results
  have e3 : Pipeline.withArrays (cfgs 0).spec c (V0 m c) (fun w => (dats m 0 c).arrAt w (cfgs 0).N)
      (Proc.devRef .tc main_v3) = Gk m c :=
    (Pipeline.withArrays_arr spec0 launch0.win.arr_inj c _ _ 3).trans (final3 m c)
  funext x
  obtain ⟨u, h, i, d, rfl⟩ : ∃ (u : Fin 1) (h : Fin 16) (i : Fin 2048) (d : Fin 64), x = ix4 u h i d :=
    ⟨x 0, x 1, x 2, x 3, eq_ix4 x⟩
  show shapeCast S1x16x2048x64 (Pipeline.withArrays (cfgs 0).spec c (V0 m c)
      (fun w => (dats m 0 c).arrAt w (cfgs 0).N) (Proc.devRef .tc main_v3))
    shapeCasts_S16x2048x64_S1x16x2048x64 (ix4 u h i d) = _
  rw [e3, shapeCast_abc_1abc_apply]
  rfl

/-- The idealized kernel runs, its result array ends at the specification of its argument arrays, and those end
    as they were. -/
theorem kernel_value (ρ : Dev nD → PrngReg) :
    θ_run defs (onTc (τ := τ) (main (F := Ideal))) ⟨m, fun _ => 0, ρ⟩ (fun r => ∀ c : Dev nD,
      r.2.mem ((c.tc : Thread nD τ).loc main_v4) = Attn.G (qA m c) (kA m c) (vA m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v4 (Pipeline.mem_restRefs_of main_v4 (by decide) (by decide))).trans (tail_v4 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KValue

end
-- ==== Proof.RefImports.lean ====
/- The reference's generated run and its read-at-an-index lemmas, gathered for the modules that read the
   reference's result as a function of the argument arrays. -/
import proofs.«177288_j29240137351227_1_alg».proof.Proof.Gen.ReferenceIdeal.Run
import proofs.«177288_j29240137351227_1_alg».proof.Proof.Gen.ReferenceIdeal.Read
-- ==== Proof.RefValue.lean ====
/-
  The reference's result is the specification.

  Read one operation at a time, the reference computes at `(0, h, i, d)`: the inner products of query row `i` with
  every key row `j`, scaled by 1/8 and squared; those are kept where `i ≥ j` (a lower-triangular mask built from two
  iotas) and replaced by `0` elsewhere; the kept weights are summed over `j` (from the initial value `0`) and
  contracted with the value rows; the quotient of the two, with ε added to the denominator, is the result.  That
  is `Attn.G` index by index.
-/
import proofs.«177288_j29240137351227_1_alg».proof.Proof.RefImports
import proofs.«177288_j29240137351227_1_alg».proof.Proof.Spec
import Idealize.ShloMosaic.Lib.StableHlo.Predicate

noncomputable section

namespace Cert.ReferenceIdeal.RefValue

open Cert.ReferenceIdeal Cert.ReferenceIdeal.Gen Cert.ReferenceIdeal.Read
open Idealize.ShloMosaic Idealize.ShloMosaic.ValueIdx
open scoped BigOperators

/-- The triangle's bit as a comparison of words: for a row `r` and a column `j` below 2048, the signed comparison
    `r + 0 ≥ j` of their 32-bit words holds exactly when `j ≤ r` as natural numbers (both words are far below 2³¹,
    so they read the same signed and unsigned, and adding the zero word changes nothing). -/
private theorem tril_bit (r j : ℕ) (hr : r < 2048) (hj : j < 2048) :
    IntOp.cmpi .sge (IntOp.addi (BitVec.ofNat 32 r) 0#32) (BitVec.ofNat 32 j) = 1#1 ↔ j ≤ r := by
  have ha : (IntOp.addi (BitVec.ofNat 32 r) 0#32).toNat = r := by
    simp only [IntOp.addi, BitVec.add_zero, BitVec.toNat_ofNat]; omega
  have hb : (BitVec.ofNat 32 j).toNat = j := by
    simp only [BitVec.toNat_ofNat]; omega
  rw [StableHlo.Predicate.sge_iff_toNat (by rw [ha]; omega) (by rw [hb]; omega), ha, hb]

/-- The mask at row `r`, column `j`: the bit `1` on and below the diagonal, `0` above it. -/
private theorem mask_at (r j : Fin 2048) :
    val_main_v5 (F := Ideal) (ix2 r j) = if j.val ≤ r.val then 1#1 else 0#1 := by
  rw [val_main_v5_apply, val_main_call0_v4_apply, val_main_call0_v2_apply, val_main_call0_v0_apply,
    val_main_call0_v1_apply, val_main_call0_c_apply, val_main_call0_v3_apply, val_main_v4_apply, val_main_c_apply,
    val_main_call0_v5_apply, val_main_call0_c_0_apply]
  show Scalar.select (IntOp.cmpi .sge (IntOp.addi (BitVec.ofNat 32 r.val) 0#32) (BitVec.ofNat 32 j.val)) 1#1 0#1 = _
  by_cases hjr : j.val ≤ r.val
  · rw [(tril_bit r.val j.val r.isLt j.isLt).mpr hjr, if_pos hjr, select_one]
  · rw [eq_zero_of_ne_one (mt (tril_bit r.val j.val r.isLt j.isLt).mp hjr), if_neg hjr, select_zero]

/-- The masked squared score at `(0, h, r, j)` is the weight of key row `j` for query row `r`. -/
theorem v6_at (x0 x1 : (⟨S1x16x2048x64, .f32⟩ : BufTy).Contents (Elt Ideal)) (h : Fin 16) (r j : Fin 2048) :
    val_main_v6 (F := Ideal) x0 x1 (ix4 (0 : Fin 1) h r j) = Attn.w x0 x1 h r j := by
  have e1 : idx_main_call1_v0 (ix4 (0 : Fin 1) h r j) = ix2 r j :=
    funext fun a => Fin.ext (by match a with | ⟨0, _⟩ => rfl | ⟨1, _⟩ => rfl)
  have el : ∀ k : Fin 64, lidx_main_v0 (ix4 (0 : Fin 1) h r j) k = ix4 (0 : Fin 1) h r k := fun k =>
    funext fun a => Fin.ext (by match a with | ⟨0, _⟩ => rfl | ⟨1, _⟩ => rfl | ⟨2, _⟩ => rfl | ⟨3, _⟩ => rfl)
  have er : ∀ k : Fin 64, ridx_main_v0 (ix4 (0 : Fin 1) h r j) k = ix4 (0 : Fin 1) h j k := fun k =>
    funext fun a => Fin.ext (by match a with | ⟨0, _⟩ => rfl | ⟨1, _⟩ => rfl | ⟨2, _⟩ => rfl | ⟨3, _⟩ => rfl)
  rw [val_main_v6_apply, val_main_call1_v0_apply, e1, mask_at, val_main_call1_v1_apply, val_main_cst_0_apply,
    val_main_v3_apply, val_main_v2_apply, val_main_v1_apply, val_main_cst_apply, val_main_v0_apply]
  simp only [el, er, Ideal.mulf_def, Ideal.ofBits_def]
  unfold Attn.w Attn.dot
  by_cases hjr : j.val ≤ r.val
  · rw [if_pos hjr, if_pos hjr, select_one]
  · rw [if_neg hjr, if_neg hjr, select_zero, Ideal.ofBits_zero_f32]

/-- The reference's last stage, as a function of the three argument arrays, is the specification. -/
theorem ref_eq_G (x0 x1 x2 : (⟨S1x16x2048x64, .f32⟩ : BufTy).Contents (Elt Ideal)) :
    val_main_v13 (F := Ideal) x0 x1 x2 = Attn.G x0 x1 x2 := by
  funext i
  obtain ⟨a, h, r, d, rfl⟩ : ∃ (a : Fin 1) (h : Fin 16) (r : Fin 2048) (d : Fin 64), i = ix4 a h r d :=
    ⟨i 0, i 1, i 2, i 3, eq_ix4 i⟩
  obtain rfl : a = 0 := Subsingleton.elim _ _
  have e7 : ∀ k : Fin 2048,
      idx_main_v7 (idx_main_v9 (idx_main_v12 (ix4 (0 : Fin 1) h r d))) k = ix4 (0 : Fin 1) h r k := fun k =>
    funext fun a => Fin.ext (by match a with | ⟨0, _⟩ => rfl | ⟨1, _⟩ => rfl | ⟨2, _⟩ => rfl | ⟨3, _⟩ => rfl)
  have e8l : ∀ k : Fin 2048, lidx_main_v8 (ix4 (0 : Fin 1) h r d) k = ix4 (0 : Fin 1) h r k := fun k =>
    funext fun a => Fin.ext (by match a with | ⟨0, _⟩ => rfl | ⟨1, _⟩ => rfl | ⟨2, _⟩ => rfl | ⟨3, _⟩ => rfl)
  have e8r : ∀ k : Fin 2048, ridx_main_v8 (ix4 (0 : Fin 1) h r d) k = ix4 (0 : Fin 1) h k d := fun k =>
    funext fun a => Fin.ext (by match a with | ⟨0, _⟩ => rfl | ⟨1, _⟩ => rfl | ⟨2, _⟩ => rfl | ⟨3, _⟩ => rfl)
  rw [val_main_v13_apply, val_main_v8_apply, val_main_v12_apply, val_main_v11_apply, val_main_v9_apply,
    val_main_v10_apply, val_main_cst_2_apply, val_main_v7_apply, val_main_cst_1_apply]
  simp only [e7, e8l, e8r, v6_at, Ideal.hostDivf_def, Ideal.addf_def, Ideal.ofBits_def, Ideal.ofBits_zero_f32, zero_add]
  rfl

end Cert.ReferenceIdeal.RefValue

end
-- ==== Proof.lean ====
/-
  Squared-score causal linear attention: the kernel against its reference, over the extended reals.

  Both programs compute, for every head `h`, query row `i` and feature `d`,
  `(∑ j ≤ i, s(i,j)² · v j d) / ((∑ j ≤ i, s(i,j)²) + ε)` with `s(i,j)` the inner product of query row `i` and key row `j`
  scaled by 1/8 (`Attn.G`).  The reference takes the two sums over all 2048 key rows under a triangular mask; the
  kernel walks the key rows in four blocks of 512 per query block, skips the blocks after the query block (whose
  masked weights are all zero), accumulates both sums in scratch memory across the grid points of one query block,
  and divides at the last key block.  Regrouping a finite sum of extended reals in blocks and dropping zero terms
  needs only commutativity and associativity of `+` and `0 · x = 0`, so the precondition is never opened.

  The three frames: the kernel's two (as printed, and idealized) by running its body at every grid point in the
  control case the point's coordinates select, the two accumulators carried in the region's invariant; the
  reference's by its run with the result dropped.  No operation of the kernel was rewritten by the idealization, so
  there is nothing to preserve.
-/
import proofs.«177288_j29240137351227_1_alg».proof.Defs
import proofs.«177288_j29240137351227_1_alg».proof.Proof.Gen.Kernel
import proofs.«177288_j29240137351227_1_alg».proof.Proof.Gen.KernelIdeal
import proofs.«177288_j29240137351227_1_alg».proof.Proof.Gen.ReferenceIdeal
import proofs.«177288_j29240137351227_1_alg».proof.Proof.Gen.Pre_finite_inputs
import proofs.«177288_j29240137351227_1_alg».proof.Proof.HandK.Body
import proofs.«177288_j29240137351227_1_alg».proof.Proof.KArray
import proofs.«177288_j29240137351227_1_alg».proof.Proof.RefValue
import Idealize.ShloMosaic.Adequacy
import Idealize.ShloMosaic.Init

noncomputable section

namespace Cert.Proof

open Idealize.ShloMosaic Idealize.SL.Sem

/-- The kernel as printed runs and keeps its arguments. -/
theorem frame_k : Cert.frame_Kernel := fun m ρ _ => Cert.Kernel.Hand.frame (F := Bits) m ρ

/-- So does its idealization. -/
theorem frame_ki : Cert.frame_KernelIdeal := fun m ρ _ => Cert.KernelIdeal.Hand.frame (F := Ideal) m ρ

/-- The reference's run, its result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the specification of those arguments. -/
theorem algebraic : Cert.algebraic_KernelIdeal_ReferenceIdeal := by
  intro m ρ m' ρ' _ hagree
  refine ⟨fun c => Attn.G (Cert.KernelIdeal.KValue.qA m c) (Cert.KernelIdeal.KValue.kA m c) (Cert.KernelIdeal.KValue.vA m c),
    Cert.KernelIdeal.KValue.kernel_value m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v13_eq, Cert.ReferenceIdeal.RefValue.ref_eq_G,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
